-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_15 : BitVec 32 := 0#32
  let v32 : BitVec 1 := Scalar.cmpi .ne v31 c0_i32_15
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  h_S_ : 0 < S_.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Base.lean ====
/-
  What the three control cases of the kernel body share: the buffers' contents when the region is entered (after the
  two reshapes of the labels), each window's block at a grid point, the two branch conditions in closed form over the
  64 grid points (the accumulator is reset where the column block is the first, the result is stored where it is the
  last), where the result window is idle, and the scoped rest as the scratch accumulator held at some contents.
-/
import proofs.«161786_j59605556134109_1_alg».proof.Proof.Gen.Kernel.Launch
import proofs.«161786_j59605556134109_1_alg».proof.Proof.Gen.Kernel.Skeleton
import proofs.«161786_j59605556134109_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation; -/
abbrev V₀ (c : Dev nD) : Valuation τ sig (Elt F) := fun b => m (c, b)
/-- and when the region is entered: the two reshapes of the labels have run. -/
abbrev V (c : Dev nD) (b : Ref sig .tc) : Buf (Elt F) ((c : Thread nD τ).loc b) := StableHlo.after hostOps0 (V₀ m c) (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the block
    index has not moved), for any proof data whose array is the entry contents and whose body leaves the block in place:
    one statement per input window (the embeddings' row block, their column block, the labels' column and row blocks). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch's condition (the column block is the first), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition (the column block is the last). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the result is not stored the result window is idle, -/
theorem idleAt0_4 : ∀ t : Fin cfg0.N, ¬cond0_1 (grid0.coords t) → cfg0.idle 4 (grid0.coords t) = true := by decide +kernel
/-- and is not written back; -/
theorem noFlush0_4 : ∀ t : Fin cfg0.N, ¬cond0_1 (grid0.coords t) → (cfg0.win 4).flush t = false := by decide +kernel
/-- where it is stored the window is live. -/
theorem liveAt0_4 : ∀ t : Fin cfg0.N, cond0_1 (grid0.coords t) → cfg0.idle 4 (grid0.coords t) = false := by decide +kernel

/-! ## The staging memrefs at a point, and the scratch accumulator -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM0_0 : Memref sig .tc .vmem S1024x1 .f32 := Memref.whole cc0_scratch0
/-- One staging buffer of the result window and the scratch, as views through which contents are stated. -/
abbrev VO0_4 : View sig .tc .vmem S1024x1 .f32 := (Memref.whole cc0_stg4_0 : Memref sig .tc .vmem S1024x1 .f32).view
abbrev VS0_0 : View sig .tc .vmem S1024x1 .f32 := scM0_0.view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The kernel body at a point of the FIRST column block: the accumulator is zeroed, then the block's row sums are added; nothing is stored into the result window.
-/
import proofs.«161786_j59605556134109_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body's triple in this case, on any whole staging memrefs: the four input blocks come back as they were; the
    accumulator comes back with the stores' pieces written (the pieces are fixed by the proof of the triple: what each store writes, in order). -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .f32) (x1 : Vec F S1024x128 .f32) (x2 : Vec F S1024x1 .i32) (x3 : Vec F S1x1024 .i32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨[], ?_, fun xi4 E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunB.lean ====
/-
  The kernel body at a point of a MIDDLE column block: the block's row sums are added to what the accumulator held; nothing is stored into the result window.
-/
import proofs.«161786_j59605556134109_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body's triple in this case, on any whole staging memrefs: the four input blocks come back as they were; the
    accumulator comes back with the stores' pieces written (the pieces are fixed by the proof of the triple: what each store writes, in order). -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .f32) (x1 : Vec F S1024x128 .f32) (x2 : Vec F S1024x1 .i32) (x3 : Vec F S1x1024 .i32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨[], ?_, fun xi4 E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunC.lean ====
/-
  The kernel body at a point of the LAST column block: the block's row sums are added to what the accumulator held, and the accumulator is copied into the result window.
-/
import proofs.«161786_j59605556134109_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body's triple in this case, on any whole staging memrefs: the four input blocks come back as they were; the
    accumulator comes back with the stores' pieces written (the pieces are fixed by the proof of the triple: what each store writes, in order). -/
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨?_, ?_, fun E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Body.lean ====
/-
  The proof data of the one pipeline and its body obligation.  After the body at grid point `t` the scratch
  accumulator holds: at a point of the first column block, the block's row sums added to zero; at any other point, the
  block's row sums added to what the point before left.  The result window's staging buffer is stored only at the
  points of the last column block, where it receives the accumulator; elsewhere it is idle and handed back untouched.
  The invariant between points is the accumulator at the contents the point before left (anything before the first
  point) and the generator register.  The two windows on the embeddings' array hold it at the two halves of the share.
-/
import proofs.«161786_j59605556134109_1_alg».proof.Proof.K.RunA
import proofs.«161786_j59605556134109_1_alg».proof.Proof.K.RunB
import proofs.«161786_j59605556134109_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a grid point -/

abbrev runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)
abbrev runB (c : Dev nD) (t : Fin cfg0.N) (h0 : ¬t.val % 8 = 0) (h1 : ¬t.val % 8 = 7) (xs : Vec F S1024x1 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) xs
abbrev runC (c : Dev nD) (t : Fin cfg0.N) (h0 : ¬t.val % 8 = 0) (h1 : t.val % 8 = 7) (xs : Vec F S1024x1 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) xs

/-- The pieces each case leaves in the accumulator cover it (each store is of the whole buffer). -/
theorem scoverA (c : Dev nD) (t : Fin cfg0.N) (h0 : t.val % 8 = 0) (h1 : ¬t.val % 8 = 7) (y : S1024x1.Idx) :
    ∃ pc ∈ (runA m c t h0 h1).2.1, y ∈ pc.1.set :=
  View.cover_of_tiledL (runA m c t h0 h1).2.1 S1024x1.size (by sl_kernel_rfl) y
theorem scoverB (c : Dev nD) (t : Fin cfg0.N) (h0 : ¬t.val % 8 = 0) (h1 : ¬t.val % 8 = 7) (xs : Vec F S1024x1 .f32) (y : S1024x1.Idx) :
    ∃ pc ∈ (runB m c t h0 h1 xs).2.1, y ∈ pc.1.set :=
  View.cover_of_tiledL (runB m c t h0 h1 xs).2.1 S1024x1.size (by sl_kernel_rfl) y
theorem scoverC (c : Dev nD) (t : Fin cfg0.N) (h0 : ¬t.val % 8 = 0) (h1 : t.val % 8 = 7) (xs : Vec F S1024x1 .f32) (y : S1024x1.Idx) :
    ∃ pc ∈ (runC m c t h0 h1 xs).2.1, y ∈ pc.1.set :=
  View.cover_of_tiledL (runC m c t h0 h1 xs).2.1 S1024x1.size (by sl_kernel_rfl) y
/-- The piece the last case stores into the result window covers it. -/
theorem coverC (c : Dev nD) (t : Fin cfg0.N) (h0 : ¬t.val % 8 = 0) (h1 : t.val % 8 = 7) (xs : Vec F S1024x1 .f32) (y : S1024x1.Idx) :
    ∃ pc ∈ (runC m c t h0 h1 xs).1, y ∈ pc.1.set :=
  View.cover_of_tiledL (runC m c t h0 h1 xs).1 S1024x1.size (by sl_kernel_rfl) y

/-- What each case leaves in the accumulator: its pieces read back. -/
def soutA (c : Dev nD) (t : Fin cfg0.N) (h0 : t.val % 8 = 0) (h1 : ¬t.val % 8 = 7) : Vec F S1024x1 .f32 :=
  VS0_0.read (Elt F) (VS0_0.writes (Elt F) VS0_0.junk (runA m c t h0 h1).2.1)
def soutB (c : Dev nD) (t : Fin cfg0.N) (h0 : ¬t.val % 8 = 0) (h1 : ¬t.val % 8 = 7) (xs : Vec F S1024x1 .f32) : Vec F S1024x1 .f32 :=
  VS0_0.read (Elt F) (VS0_0.writes (Elt F) VS0_0.junk (runB m c t h0 h1 xs).2.1)
def soutC (c : Dev nD) (t : Fin cfg0.N) (h0 : ¬t.val % 8 = 0) (h1 : t.val % 8 = 7) (xs : Vec F S1024x1 .f32) : Vec F S1024x1 .f32 :=
  VS0_0.read (Elt F) (VS0_0.writes (Elt F) VS0_0.junk (runC m c t h0 h1 xs).2.1)
/-- What the last case leaves in the result window's staging buffer. -/
def outC (c : Dev nD) (t : Fin cfg0.N) (h0 : ¬t.val % 8 = 0) (h1 : t.val % 8 = 7) (xs : Vec F S1024x1 .f32) : Vec F S1024x1 .f32 :=
  VO0_4.read (Elt F) (VO0_4.writes (Elt F) VO0_4.junk (runC m c t h0 h1 xs).1)
/-- Where nothing is stored into the result window its contents are not named (the window is idle there). -/
def outIdle : Vec F S1024x1 .f32 := VO0_4.read (Elt F) VO0_4.junk

/-! ## What the result window's buffer and the accumulator hold after each point -/

/-- After the body at position `n`: the result window's staging buffer, and the accumulator. -/
def outsAt0 (c : Dev nD) : (n : ℕ) → n < cfg0.N → Vec F S1024x1 .f32 × Vec F S1024x1 .f32
  | 0, hn => (outIdle, soutA m c ⟨0, hn⟩ (Nat.zero_mod _) (by show ¬ 0 % 8 = 7; decide))
  | n + 1, hn =>
    if h0 : (n + 1) % 8 = 0 then (outIdle, soutA m c ⟨n + 1, hn⟩ h0 (by show ¬ (n + 1) % 8 = 7; omega))
    else if h1 : (n + 1) % 8 = 7 then
      (outC m c ⟨n + 1, hn⟩ h0 h1 (outsAt0 c n (Nat.lt_of_succ_lt hn)).2, soutC m c ⟨n + 1, hn⟩ h0 h1 (outsAt0 c n (Nat.lt_of_succ_lt hn)).2)
    else (outIdle, soutB m c ⟨n + 1, hn⟩ h0 h1 (outsAt0 c n (Nat.lt_of_succ_lt hn)).2)

theorem outsAt0_A (c : Dev nD) (t : Fin cfg0.N) (h0 : t.val % 8 = 0) (h1 : ¬t.val % 8 = 7) :
    outsAt0 m c t.val t.isLt = (outIdle, soutA m c t h0 h1) := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 m c t.val t.isLt = (outIdle, soutB m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (outC m c t h0 h1 (outsAt0 m c (t.val - 1) (Nat.lt_of_le_of_lt (Nat.sub_le _ _) t.isLt)).2,
      soutC m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point the scratch at anything; afterwards at what the
    point before left; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body each input's buffer at its block and
    the result's at `outsAt0`; the invariant `PhiS`; nothing owed; the embeddings' array held by its two windows at the
    two halves of the share, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the closed forms say which case the point is in; the
    invariant hands the body the accumulator at what the point before left (at anything at the first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · have h1 : ¬t.val % 8 = 7 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold soutA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((runA m c t h0 h1).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scoverA m c t h0 h1)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((runA m c t h0 h1).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scoverA m c t h0 h1)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold outC soutC; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((runC m c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scoverC m c t h0 h1 _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC m c t h0 h1 _)
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold soutB; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((runB m c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scoverB m c t h0 h1 _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scoped rest back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨HS0, Hg⟩
  isplitl [HS0]
  · iexists _; iexact HS0
  iexact Hg

end Cert.Kernel.Hand

end
-- ==== Proof.K.Launch.lean ====
/-
  The launch of the one kernel region between the host operations, and the run of the whole program.

  The program is: two reshapes of the labels; the kernel region; then the logarithm of the region's result, its sum and
  the quotient by 8192.  Two of the region's input windows read ONE array (the embeddings): entering the region the
  array's whole share is split into its two halves, one per window, and leaving it the halves are joined again (both
  windows leave the array as they found it).  Every other buffer is held whole throughout.
-/
import proofs.«161786_j59605556134109_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows, one by one -/

/-- The distinct buffers behind the five windows' arrays: the embeddings, the two reshaped label arrays, the result. -/
theorem arrImage0 : (Finset.univ.image (Pipeline.arrRef spec0) : Finset (Ref sig .tc)) = ([main_arg0, main_v0, main_v1, main_v2] : List (Ref sig .tc)).toFinset := by
  decide

/-- Those buffers whole at contents `W`, conjoined one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  rw [bigSep_eq_bigSepL_of_eq [main_arg0, main_v0, main_v1, main_v2] arrImage0 (by decide)]
  rfl

/-- The pipeline's arrays at contents `G`, window by window: the embeddings' array at the two half shares, the rest whole. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-! ## The segments of the program -/

/-- The pipeline library's algebra is the whole of the certificate's. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the host operations: the generator register and the core owing nothing. -/
abbrev R (c : Dev nD) : sProp 𝕄 :=
  iprop((∃ r, prngReg c r) ∗ ∃ W, owes (c : Thread nD τ) (0 : CellTallies nD τ sig Unit) W)

/-- The buffers when the region is entered, as a valuation. -/
abbrev W0 (c : Dev nD) : Valuation τ sig (Elt F) := StableHlo.after hostOps0 (V₀ m c)

/-- The result array after the region: the entry contents overwritten by every block written back. -/
def final (c : Dev nD) : Buf (Elt F) ((c : Thread nD τ).loc main_v2) := (dats m 0 c).arrAt 4 cfg0.N

/-- The buffers when the region is left: the result array at `final`, every other buffer as entered. -/
def W1 (c : Dev nD) : Valuation τ sig (Elt F) := Function.update (W0 m c) (Proc.devRef .tc main_v2) (final m c)

theorem W1_v2 (c : Dev nD) : W1 m c (Proc.devRef .tc main_v2) = final m c := Function.update_self ..
theorem W1_of_ne (c : Dev nD) (b : Ref sig .tc) (hb : b ≠ main_v2) : W1 m c (Proc.devRef .tc b) = W0 m c (Proc.devRef .tc b) :=
  Function.update_of_ne (fun h => hb (Proc.devRef_injective _ h)) ..

theorem fresh_of_ops {ops : List (HloOp τ sig (Elt F))} (h : ops.Forall fun op => op.fresh = ∅) : ∀ op ∈ ops, op.fresh = ∅ :=
  List.forall_iff_forall_mem.mp h

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The two reshapes before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fresh_of_ops hostOps0_fresh) (V₀ m) R

/-- The logarithm, the sum and the quotient after the region, over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fresh_of_ops hostOps1_fresh) (W1 m) R

/-! ## The unscoped buffers one by one -/

/-- The unscoped buffers no window stages, whole at a valuation. -/
def restChain (c : Dev nD) (W : Valuation τ sig (Elt F)) : sProp 𝕄 :=
  iprop((((c : Thread nD τ).loc main_arg1) ↦{fullShare} W (Proc.devRef .tc main_arg1)) ∗ (((c : Thread nD τ).loc main_v3) ↦{fullShare} W (Proc.devRef .tc main_v3)) ∗ (((c : Thread nD τ).loc main_cst) ↦{fullShare} W (Proc.devRef .tc main_cst)) ∗ (((c : Thread nD τ).loc main_v4) ↦{fullShare} W (Proc.devRef .tc main_v4)) ∗ (((c : Thread nD τ).loc main_cst_0) ↦{fullShare} W (Proc.devRef .tc main_cst_0)) ∗ (((c : Thread nD τ).loc main_v5) ↦{fullShare} W (Proc.devRef .tc main_v5)))

/-- All the core's unscoped buffers held at a valuation: the four arrays behind the windows, then the rest. -/
theorem held0_eq (c : Dev nD) (W : Valuation τ sig (Elt F)) :
    (StableHlo.held (c : Thread nD τ) (Pipeline.ucRefs τ sig) W : sProp 𝕄)
      = iprop(((((c : Thread nD τ).loc main_arg0) ↦{fullShare} W (Proc.devRef .tc main_arg0)) ∗ (((c : Thread nD τ).loc main_v0) ↦{fullShare} W (Proc.devRef .tc main_v0)) ∗ (((c : Thread nD τ).loc main_v1) ↦{fullShare} W (Proc.devRef .tc main_v1)) ∗ (((c : Thread nD τ).loc main_v2) ↦{fullShare} W (Proc.devRef .tc main_v2))) ∗ restChain c W) := by
  rw [← Pipeline.unscopedBufs_held c W,
    show (unscopedBufs (Ix := Unit) (Name := ℕ) (U := UR sig nD τ) (Lvl := ℕ) c (fun b => W b) : sProp 𝕄)
      = iprop(Pipeline.arrBufs spec0 c (fun b => W b) ∗ Pipeline.unscopedRest spec0 c (fun b => W b)) from
      Pipeline.unscopedBufs_split₀ cfgs 0 winFacts₀0.arr_unscoped c (fun b => W b),
    arrBufs0_eq, unscopedRest0_eq]
  rfl

/-- An input window's array ends as the region found it. -/
theorem arrAtN_0 (c : Dev nD) : (dats m 0 c).arrAt 0 cfg0.N = W0 m c (Proc.devRef .tc main_arg0) := ((dats m 0 c).arrAt_in 0 rfl _).trans (A_eq m c 0)
theorem arrAtN_1 (c : Dev nD) : (dats m 0 c).arrAt 1 cfg0.N = W0 m c (Proc.devRef .tc main_arg0) := ((dats m 0 c).arrAt_in 1 rfl _).trans (A_eq m c 1)
theorem arrAtN_2 (c : Dev nD) : (dats m 0 c).arrAt 2 cfg0.N = W0 m c (Proc.devRef .tc main_v0) := ((dats m 0 c).arrAt_in 2 rfl _).trans (A_eq m c 2)
theorem arrAtN_3 (c : Dev nD) : (dats m 0 c).arrAt 3 cfg0.N = W0 m c (Proc.devRef .tc main_v1) := ((dats m 0 c).arrAt_in 3 rfl _).trans (A_eq m c 3)

/-- The rest is the same at the two valuations: only the result array differs. -/
theorem restChain_W1 (c : Dev nD) : (restChain c (W1 m c) : sProp 𝕄) = restChain c (W0 m c) := by
  unfold restChain
  rw [W1_of_ne m c main_arg1 (by decide), W1_of_ne m c main_v3 (by decide), W1_of_ne m c main_cst (by decide), W1_of_ne m c main_v4 (by decide), W1_of_ne m c main_cst_0 (by decide), W1_of_ne m c main_v5 (by decide)]

/-! ## The region -/

set_option backward.isDefEq.respectTransparency.types false in
/-- The kernel region: entered from all the unscoped buffers as the reshapes left them, the embeddings' share halved
    between the two windows that read them; left with the halves joined and the result array at `final`. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W1 m c) ∗ R c)
  X c := iprop(∃ r, prngReg c r)
  Y c := iprop(∃ r, prngReg c r)
  Z c := restChain c (W0 m c)
  hentry c := by
    rw [held0_eq, arrays0_eq]
    iintro ⟨⟨⟨⟨Ha, Hv0, Hv1, Hv2⟩, Hrest⟩, Hp, HO⟩, -, -⟩
    ihave Hh := (pointsTo_share (PosShare.mem_left_op_right fullShare)).1 $$ Ha
    icases Hh with ⟨Hl, Hr⟩
    imodintro
    isplitl [Hl Hr Hv0 Hv1 Hv2]
    · isplitl [Hl]; · iexact Hl
      isplitl [Hr]; · iexact Hr
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec0 c) ?_ (hin m c)
    unfold Pipeline.ΦA
    iintro ⟨Hp, -, Hr⟩
    isplitl [Hr] <;> iassumption
  hout c := by
    refine (hout m c).trans ?_
    rw [Pipeline.ownSems0_none]; unfold Pipeline.ΦA
    iintro ⟨Hr, Hp⟩
    isplitl [Hp]; · iexact Hp
    isplitr; · iempintro
    iexact Hr
  hexit c := by
    rw [held0_eq, arrays0_eq, arrAtN_0, arrAtN_1, arrAtN_2, arrAtN_3, restChain_W1,
      W1_of_ne m c main_arg0 (by decide), W1_of_ne m c main_v0 (by decide), W1_of_ne m c main_v1 (by decide), W1_v2]
    iintro ⟨⟨Hl, Hr, Hv0, Hv1, Hv2⟩, HO, Hp, Hrest⟩
    ihave Ha := (pointsTo_share (PosShare.mem_left_op_right fullShare)).2 $$ [Hl Hr]
    · isplitl [Hl] <;> iassumption
    imodintro
    isplitr [Hp HO]
    · isplitl [Ha Hv0 Hv1 Hv2]
      · isplitl [Ha]; · iexact Ha
        isplitl [Hv0]; · iexact Hv0
        isplitl [Hv1]; · iexact Hv1
        iexact Hv2
      iexact Hrest
    · isplitl [Hp]; · iexact Hp
      unfold Pipeline.Dat.owesAt Pipeline.owesWithin
      icases HO with ⟨%W, -, HO⟩; iexists W; iexact HO

/-! ## The run -/

/-- The program as the list of its three segments. -/
abbrev segs : List (Pipeline.Seg (pcfgs (F := F)) adm (dats m) () defs₀ 𝒱₀ L lv) := [.host (seg0 m), .region (reg0 m), .host (seg1 m)]

/-- The buffers at the end: the three operations after the region have run. -/
abbrev W2 (c : Dev nD) : Valuation τ sig (Elt F) := StableHlo.after hostOps1 (W1 m c)

/-- The last thread state: every unscoped buffer at its final contents, the generator register at some state. -/
abbrev Tₙ (c : Dev nD) : sProp 𝕄 := iprop(StableHlo.held (c : Thread nD τ) (Pipeline.ucRefs τ sig) (W2 m c) ∗ ∃ r, prngReg c r)

/-- What the final memory holds: the result and the two arguments at the final valuation. -/
def QC : PUnit × MemSt nD τ sig (Elt F) → Prop := fun r => ∀ c : Dev nD,
  r.2.mem ((c : Thread nD τ).loc main_v5) = W2 m c (Proc.devRef .tc main_v5)
  ∧ r.2.mem ((c : Thread nD τ).loc main_arg0) = W2 m c (Proc.devRef .tc main_arg0)
  ∧ r.2.mem ((c : Thread nD τ).loc main_arg1) = W2 m c (Proc.devRef .tc main_arg1)

set_option backward.isDefEq.respectTransparency.types false in
/-- For any float values, from any memory with zero counters: every weakly fair execution of the program terminates,
    and the final memory holds the result and the two arguments at the final valuation. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) (Pipeline.ucRefs τ sig) (StableHlo.after hostOps1 (W1 m c)) ∗ R c) ⊢ _
      iintro ⟨Hh, Hp, HO⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => s.mem ((c : Thread nD τ).loc main_v5) = W2 m c (Proc.devRef .tc main_v5)
      ∧ s.mem ((c : Thread nD τ).loc main_arg0) = W2 m c (Proc.devRef .tc main_arg0)
      ∧ s.mem ((c : Thread nD τ).loc main_arg1) = W2 m c (Proc.devRef .tc main_arg1))
    (hfin := fun c s' => by
      dsimp only [Tₙ]; rw [held0_eq]; unfold restChain
      iintro ⟨⟨⟨⟨Ha, -, -, -⟩, H1, -, -, -, -, H5⟩, -⟩, HSI⟩
      icombine HSI Ha gives %ha
      icombine HSI H1 gives %h1
      icombine HSI H5 gives %h5
      imodintro
      isplitr; · ipureintro; exact ⟨Buf.eq_of_forall_mem_univ h5, Buf.eq_of_forall_mem_univ ha, Buf.eq_of_forall_mem_univ h1⟩
      iexact HSI)
    (hQ := fun _ h => h)

/-- No operation writes the two arguments: they end as launched. -/
theorem W2_arg0 (c : Dev nD) : W2 m c (Proc.devRef .tc main_arg0) = m ((c : Thread nD τ).loc main_arg0) := by
  show StableHlo.after hostOps1 (W1 m c) (Proc.devRef .tc main_arg0) = _
  after_results
  rw [W1_of_ne m c main_arg0 (by decide)]
  show StableHlo.after hostOps0 (V₀ m c) (Proc.devRef .tc main_arg0) = _
  after_results
theorem W2_arg1 (c : Dev nD) : W2 m c (Proc.devRef .tc main_arg1) = m ((c : Thread nD τ).loc main_arg1) := by
  show StableHlo.after hostOps1 (W1 m c) (Proc.devRef .tc main_arg1) = _
  after_results
  rw [W1_of_ne m c main_arg1 (by decide)]
  show StableHlo.after hostOps0 (V₀ m c) (Proc.devRef .tc main_arg1) = _
  after_results

/-- The result: the mean of the logarithms of the result array's entries. -/
theorem W2_v5 (c : Dev nD) : W2 m c (Proc.devRef .tc main_v5)
    = Host.divf (Host.reduceAdd (Host.log (final m c)) (constant S_ .f32 0x00000000#32) reducesTo_S8192x1_S_d0_1 h_S_) (constant S_ .f32 0x46000000#32) := by
  show StableHlo.after hostOps1 (W1 m c) (Proc.devRef .tc main_v5) = _
  after_results
  rw [W1_v2]

/-- The frame: the program runs to the end, faults nowhere, and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1.trans (W2_arg0 m c), (h c).2.2.trans (W2_arg1 m c)⟩) (run_main m ρ)

/-- The run with the result named: the mean of the logarithms of the result array, the arguments unchanged. -/
theorem run_value : θ_run defs (onTc (τ := τ) (main (F := F))) ⟨m, fun _ => 0, ρ⟩ (fun r => ∀ c : Dev nD,
      r.2.mem ((c.tc : Thread nD τ).loc main_v5)
        = Host.divf (Host.reduceAdd (Host.log (final m c)) (constant S_ .f32 0x00000000#32) reducesTo_S8192x1_S_d0_1 h_S_) (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (W2_v5 m c), (h c).2.1.trans (W2_arg0 m c), (h c).2.2.trans (W2_arg1 m c)⟩) (run_main m ρ)

end Cert.Kernel.Hand

end
-- ==== Proof.KI.Base.lean ====
/-
  What the three control cases of the kernel body share: the buffers' contents when the region is entered (after the
  two reshapes of the labels), each window's block at a grid point, the two branch conditions in closed form over the
  64 grid points (the accumulator is reset where the column block is the first, the result is stored where it is the
  last), where the result window is idle, and the scoped rest as the scratch accumulator held at some contents.
-/
import proofs.«161786_j59605556134109_1_alg».proof.Proof.Gen.KernelIdeal.Launch
import proofs.«161786_j59605556134109_1_alg».proof.Proof.Gen.KernelIdeal.Skeleton
import proofs.«161786_j59605556134109_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation; -/
abbrev V₀ (c : Dev nD) : Valuation τ sig (Elt F) := fun b => m (c, b)
/-- and when the region is entered: the two reshapes of the labels have run. -/
abbrev V (c : Dev nD) (b : Ref sig .tc) : Buf (Elt F) ((c : Thread nD τ).loc b) := StableHlo.after hostOps0 (V₀ m c) (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the block
    index has not moved), for any proof data whose array is the entry contents and whose body leaves the block in place:
    one statement per input window (the embeddings' row block, their column block, the labels' column and row blocks). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch's condition (the column block is the first), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition (the column block is the last). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the result is not stored the result window is idle, -/
theorem idleAt0_4 : ∀ t : Fin cfg0.N, ¬cond0_1 (grid0.coords t) → cfg0.idle 4 (grid0.coords t) = true := by decide +kernel
/-- and is not written back; -/
theorem noFlush0_4 : ∀ t : Fin cfg0.N, ¬cond0_1 (grid0.coords t) → (cfg0.win 4).flush t = false := by decide +kernel
/-- where it is stored the window is live. -/
theorem liveAt0_4 : ∀ t : Fin cfg0.N, cond0_1 (grid0.coords t) → cfg0.idle 4 (grid0.coords t) = false := by decide +kernel

/-! ## The staging memrefs at a point, and the scratch accumulator -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM0_0 : Memref sig .tc .vmem S1024x1 .f32 := Memref.whole cc0_scratch0
/-- One staging buffer of the result window and the scratch, as views through which contents are stated. -/
abbrev VO0_4 : View sig .tc .vmem S1024x1 .f32 := (Memref.whole cc0_stg4_0 : Memref sig .tc .vmem S1024x1 .f32).view
abbrev VS0_0 : View sig .tc .vmem S1024x1 .f32 := scM0_0.view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The kernel body at a point of the FIRST column block: the accumulator is zeroed, then the block's row sums are added; nothing is stored into the result window.
-/
import proofs.«161786_j59605556134109_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body's triple in this case, on any whole staging memrefs: the four input blocks come back as they were; the
    accumulator comes back with the stores' pieces written (the pieces are fixed by the proof of the triple: what each store writes, in order). -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .f32) (x1 : Vec F S1024x128 .f32) (x2 : Vec F S1024x1 .i32) (x3 : Vec F S1x1024 .i32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨[], ?_, fun xi4 E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunB.lean ====
/-
  The kernel body at a point of a MIDDLE column block: the block's row sums are added to what the accumulator held; nothing is stored into the result window.
-/
import proofs.«161786_j59605556134109_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body's triple in this case, on any whole staging memrefs: the four input blocks come back as they were; the
    accumulator comes back with the stores' pieces written (the pieces are fixed by the proof of the triple: what each store writes, in order). -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .f32) (x1 : Vec F S1024x128 .f32) (x2 : Vec F S1024x1 .i32) (x3 : Vec F S1x1024 .i32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨[], ?_, fun xi4 E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunC.lean ====
/-
  The kernel body at a point of the LAST column block: the block's row sums are added to what the accumulator held, and the accumulator is copied into the result window.
-/
import proofs.«161786_j59605556134109_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body's triple in this case, on any whole staging memrefs: the four input blocks come back as they were; the
    accumulator comes back with the stores' pieces written (the pieces are fixed by the proof of the triple: what each store writes, in order). -/
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨?_, ?_, fun E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Body.lean ====
/-
  The proof data of the one pipeline and its body obligation.  After the body at grid point `t` the scratch
  accumulator holds: at a point of the first column block, the block's row sums added to zero; at any other point, the
  block's row sums added to what the point before left.  The result window's staging buffer is stored only at the
  points of the last column block, where it receives the accumulator; elsewhere it is idle and handed back untouched.
  The invariant between points is the accumulator at the contents the point before left (anything before the first
  point) and the generator register.  The two windows on the embeddings' array hold it at the two halves of the share.
-/
import proofs.«161786_j59605556134109_1_alg».proof.Proof.KI.RunA
import proofs.«161786_j59605556134109_1_alg».proof.Proof.KI.RunB
import proofs.«161786_j59605556134109_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a grid point -/

abbrev runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)
abbrev runB (c : Dev nD) (t : Fin cfg0.N) (h0 : ¬t.val % 8 = 0) (h1 : ¬t.val % 8 = 7) (xs : Vec F S1024x1 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) xs
abbrev runC (c : Dev nD) (t : Fin cfg0.N) (h0 : ¬t.val % 8 = 0) (h1 : t.val % 8 = 7) (xs : Vec F S1024x1 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) xs

/-- The pieces each case leaves in the accumulator cover it (each store is of the whole buffer). -/
theorem scoverA (c : Dev nD) (t : Fin cfg0.N) (h0 : t.val % 8 = 0) (h1 : ¬t.val % 8 = 7) (y : S1024x1.Idx) :
    ∃ pc ∈ (runA m c t h0 h1).2.1, y ∈ pc.1.set :=
  View.cover_of_tiledL (runA m c t h0 h1).2.1 S1024x1.size (by sl_kernel_rfl) y
theorem scoverB (c : Dev nD) (t : Fin cfg0.N) (h0 : ¬t.val % 8 = 0) (h1 : ¬t.val % 8 = 7) (xs : Vec F S1024x1 .f32) (y : S1024x1.Idx) :
    ∃ pc ∈ (runB m c t h0 h1 xs).2.1, y ∈ pc.1.set :=
  View.cover_of_tiledL (runB m c t h0 h1 xs).2.1 S1024x1.size (by sl_kernel_rfl) y
theorem scoverC (c : Dev nD) (t : Fin cfg0.N) (h0 : ¬t.val % 8 = 0) (h1 : t.val % 8 = 7) (xs : Vec F S1024x1 .f32) (y : S1024x1.Idx) :
    ∃ pc ∈ (runC m c t h0 h1 xs).2.1, y ∈ pc.1.set :=
  View.cover_of_tiledL (runC m c t h0 h1 xs).2.1 S1024x1.size (by sl_kernel_rfl) y
/-- The piece the last case stores into the result window covers it. -/
theorem coverC (c : Dev nD) (t : Fin cfg0.N) (h0 : ¬t.val % 8 = 0) (h1 : t.val % 8 = 7) (xs : Vec F S1024x1 .f32) (y : S1024x1.Idx) :
    ∃ pc ∈ (runC m c t h0 h1 xs).1, y ∈ pc.1.set :=
  View.cover_of_tiledL (runC m c t h0 h1 xs).1 S1024x1.size (by sl_kernel_rfl) y

/-- What each case leaves in the accumulator: its pieces read back. -/
def soutA (c : Dev nD) (t : Fin cfg0.N) (h0 : t.val % 8 = 0) (h1 : ¬t.val % 8 = 7) : Vec F S1024x1 .f32 :=
  VS0_0.read (Elt F) (VS0_0.writes (Elt F) VS0_0.junk (runA m c t h0 h1).2.1)
def soutB (c : Dev nD) (t : Fin cfg0.N) (h0 : ¬t.val % 8 = 0) (h1 : ¬t.val % 8 = 7) (xs : Vec F S1024x1 .f32) : Vec F S1024x1 .f32 :=
  VS0_0.read (Elt F) (VS0_0.writes (Elt F) VS0_0.junk (runB m c t h0 h1 xs).2.1)
def soutC (c : Dev nD) (t : Fin cfg0.N) (h0 : ¬t.val % 8 = 0) (h1 : t.val % 8 = 7) (xs : Vec F S1024x1 .f32) : Vec F S1024x1 .f32 :=
  VS0_0.read (Elt F) (VS0_0.writes (Elt F) VS0_0.junk (runC m c t h0 h1 xs).2.1)
/-- What the last case leaves in the result window's staging buffer. -/
def outC (c : Dev nD) (t : Fin cfg0.N) (h0 : ¬t.val % 8 = 0) (h1 : t.val % 8 = 7) (xs : Vec F S1024x1 .f32) : Vec F S1024x1 .f32 :=
  VO0_4.read (Elt F) (VO0_4.writes (Elt F) VO0_4.junk (runC m c t h0 h1 xs).1)
/-- Where nothing is stored into the result window its contents are not named (the window is idle there). -/
def outIdle : Vec F S1024x1 .f32 := VO0_4.read (Elt F) VO0_4.junk

/-! ## What the result window's buffer and the accumulator hold after each point -/

/-- After the body at position `n`: the result window's staging buffer, and the accumulator. -/
def outsAt0 (c : Dev nD) : (n : ℕ) → n < cfg0.N → Vec F S1024x1 .f32 × Vec F S1024x1 .f32
  | 0, hn => (outIdle, soutA m c ⟨0, hn⟩ (Nat.zero_mod _) (by show ¬ 0 % 8 = 7; decide))
  | n + 1, hn =>
    if h0 : (n + 1) % 8 = 0 then (outIdle, soutA m c ⟨n + 1, hn⟩ h0 (by show ¬ (n + 1) % 8 = 7; omega))
    else if h1 : (n + 1) % 8 = 7 then
      (outC m c ⟨n + 1, hn⟩ h0 h1 (outsAt0 c n (Nat.lt_of_succ_lt hn)).2, soutC m c ⟨n + 1, hn⟩ h0 h1 (outsAt0 c n (Nat.lt_of_succ_lt hn)).2)
    else (outIdle, soutB m c ⟨n + 1, hn⟩ h0 h1 (outsAt0 c n (Nat.lt_of_succ_lt hn)).2)

theorem outsAt0_A (c : Dev nD) (t : Fin cfg0.N) (h0 : t.val % 8 = 0) (h1 : ¬t.val % 8 = 7) :
    outsAt0 m c t.val t.isLt = (outIdle, soutA m c t h0 h1) := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 m c t.val t.isLt = (outIdle, soutB m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (outC m c t h0 h1 (outsAt0 m c (t.val - 1) (Nat.lt_of_le_of_lt (Nat.sub_le _ _) t.isLt)).2,
      soutC m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point the scratch at anything; afterwards at what the
    point before left; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body each input's buffer at its block and
    the result's at `outsAt0`; the invariant `PhiS`; nothing owed; the embeddings' array held by its two windows at the
    two halves of the share, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the closed forms say which case the point is in; the
    invariant hands the body the accumulator at what the point before left (at anything at the first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · have h1 : ¬t.val % 8 = 7 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold soutA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((runA m c t h0 h1).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scoverA m c t h0 h1)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((runA m c t h0 h1).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scoverA m c t h0 h1)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold outC soutC; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((runC m c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scoverC m c t h0 h1 _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC m c t h0 h1 _)
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold soutB; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((runB m c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scoverB m c t h0 h1 _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scoped rest back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨HS0, Hg⟩
  isplitl [HS0]
  · iexists _; iexact HS0
  iexact Hg

end Cert.KernelIdeal.Hand

end
-- ==== Proof.KI.Launch.lean ====
/-
  The launch of the one kernel region between the host operations, and the run of the whole program.

  The program is: two reshapes of the labels; the kernel region; then the logarithm of the region's result, its sum and
  the quotient by 8192.  Two of the region's input windows read ONE array (the embeddings): entering the region the
  array's whole share is split into its two halves, one per window, and leaving it the halves are joined again (both
  windows leave the array as they found it).  Every other buffer is held whole throughout.
-/
import proofs.«161786_j59605556134109_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows, one by one -/

/-- The distinct buffers behind the five windows' arrays: the embeddings, the two reshaped label arrays, the result. -/
theorem arrImage0 : (Finset.univ.image (Pipeline.arrRef spec0) : Finset (Ref sig .tc)) = ([main_arg0, main_v0, main_v1, main_v2] : List (Ref sig .tc)).toFinset := by
  decide

/-- Those buffers whole at contents `W`, conjoined one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  rw [bigSep_eq_bigSepL_of_eq [main_arg0, main_v0, main_v1, main_v2] arrImage0 (by decide)]
  rfl

/-- The pipeline's arrays at contents `G`, window by window: the embeddings' array at the two half shares, the rest whole. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-! ## The segments of the program -/

/-- The pipeline library's algebra is the whole of the certificate's. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the host operations: the generator register and the core owing nothing. -/
abbrev R (c : Dev nD) : sProp 𝕄 :=
  iprop((∃ r, prngReg c r) ∗ ∃ W, owes (c : Thread nD τ) (0 : CellTallies nD τ sig Unit) W)

/-- The buffers when the region is entered, as a valuation. -/
abbrev W0 (c : Dev nD) : Valuation τ sig (Elt F) := StableHlo.after hostOps0 (V₀ m c)

/-- The result array after the region: the entry contents overwritten by every block written back. -/
def final (c : Dev nD) : Buf (Elt F) ((c : Thread nD τ).loc main_v2) := (dats m 0 c).arrAt 4 cfg0.N

/-- The buffers when the region is left: the result array at `final`, every other buffer as entered. -/
def W1 (c : Dev nD) : Valuation τ sig (Elt F) := Function.update (W0 m c) (Proc.devRef .tc main_v2) (final m c)

theorem W1_v2 (c : Dev nD) : W1 m c (Proc.devRef .tc main_v2) = final m c := Function.update_self ..
theorem W1_of_ne (c : Dev nD) (b : Ref sig .tc) (hb : b ≠ main_v2) : W1 m c (Proc.devRef .tc b) = W0 m c (Proc.devRef .tc b) :=
  Function.update_of_ne (fun h => hb (Proc.devRef_injective _ h)) ..

theorem fresh_of_ops {ops : List (HloOp τ sig (Elt F))} (h : ops.Forall fun op => op.fresh = ∅) : ∀ op ∈ ops, op.fresh = ∅ :=
  List.forall_iff_forall_mem.mp h

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The two reshapes before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fresh_of_ops hostOps0_fresh) (V₀ m) R

/-- The logarithm, the sum and the quotient after the region, over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fresh_of_ops hostOps1_fresh) (W1 m) R

/-! ## The unscoped buffers one by one -/

/-- The unscoped buffers no window stages, whole at a valuation. -/
def restChain (c : Dev nD) (W : Valuation τ sig (Elt F)) : sProp 𝕄 :=
  iprop((((c : Thread nD τ).loc main_arg1) ↦{fullShare} W (Proc.devRef .tc main_arg1)) ∗ (((c : Thread nD τ).loc main_v3) ↦{fullShare} W (Proc.devRef .tc main_v3)) ∗ (((c : Thread nD τ).loc main_cst) ↦{fullShare} W (Proc.devRef .tc main_cst)) ∗ (((c : Thread nD τ).loc main_v4) ↦{fullShare} W (Proc.devRef .tc main_v4)) ∗ (((c : Thread nD τ).loc main_cst_0) ↦{fullShare} W (Proc.devRef .tc main_cst_0)) ∗ (((c : Thread nD τ).loc main_v5) ↦{fullShare} W (Proc.devRef .tc main_v5)))

/-- All the core's unscoped buffers held at a valuation: the four arrays behind the windows, then the rest. -/
theorem held0_eq (c : Dev nD) (W : Valuation τ sig (Elt F)) :
    (StableHlo.held (c : Thread nD τ) (Pipeline.ucRefs τ sig) W : sProp 𝕄)
      = iprop(((((c : Thread nD τ).loc main_arg0) ↦{fullShare} W (Proc.devRef .tc main_arg0)) ∗ (((c : Thread nD τ).loc main_v0) ↦{fullShare} W (Proc.devRef .tc main_v0)) ∗ (((c : Thread nD τ).loc main_v1) ↦{fullShare} W (Proc.devRef .tc main_v1)) ∗ (((c : Thread nD τ).loc main_v2) ↦{fullShare} W (Proc.devRef .tc main_v2))) ∗ restChain c W) := by
  rw [← Pipeline.unscopedBufs_held c W,
    show (unscopedBufs (Ix := Unit) (Name := ℕ) (U := UR sig nD τ) (Lvl := ℕ) c (fun b => W b) : sProp 𝕄)
      = iprop(Pipeline.arrBufs spec0 c (fun b => W b) ∗ Pipeline.unscopedRest spec0 c (fun b => W b)) from
      Pipeline.unscopedBufs_split₀ cfgs 0 winFacts₀0.arr_unscoped c (fun b => W b),
    arrBufs0_eq, unscopedRest0_eq]
  rfl

/-- An input window's array ends as the region found it. -/
theorem arrAtN_0 (c : Dev nD) : (dats m 0 c).arrAt 0 cfg0.N = W0 m c (Proc.devRef .tc main_arg0) := ((dats m 0 c).arrAt_in 0 rfl _).trans (A_eq m c 0)
theorem arrAtN_1 (c : Dev nD) : (dats m 0 c).arrAt 1 cfg0.N = W0 m c (Proc.devRef .tc main_arg0) := ((dats m 0 c).arrAt_in 1 rfl _).trans (A_eq m c 1)
theorem arrAtN_2 (c : Dev nD) : (dats m 0 c).arrAt 2 cfg0.N = W0 m c (Proc.devRef .tc main_v0) := ((dats m 0 c).arrAt_in 2 rfl _).trans (A_eq m c 2)
theorem arrAtN_3 (c : Dev nD) : (dats m 0 c).arrAt 3 cfg0.N = W0 m c (Proc.devRef .tc main_v1) := ((dats m 0 c).arrAt_in 3 rfl _).trans (A_eq m c 3)

/-- The rest is the same at the two valuations: only the result array differs. -/
theorem restChain_W1 (c : Dev nD) : (restChain c (W1 m c) : sProp 𝕄) = restChain c (W0 m c) := by
  unfold restChain
  rw [W1_of_ne m c main_arg1 (by decide), W1_of_ne m c main_v3 (by decide), W1_of_ne m c main_cst (by decide), W1_of_ne m c main_v4 (by decide), W1_of_ne m c main_cst_0 (by decide), W1_of_ne m c main_v5 (by decide)]

/-! ## The region -/

set_option backward.isDefEq.respectTransparency.types false in
/-- The kernel region: entered from all the unscoped buffers as the reshapes left them, the embeddings' share halved
    between the two windows that read them; left with the halves joined and the result array at `final`. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W1 m c) ∗ R c)
  X c := iprop(∃ r, prngReg c r)
  Y c := iprop(∃ r, prngReg c r)
  Z c := restChain c (W0 m c)
  hentry c := by
    rw [held0_eq, arrays0_eq]
    iintro ⟨⟨⟨⟨Ha, Hv0, Hv1, Hv2⟩, Hrest⟩, Hp, HO⟩, -, -⟩
    ihave Hh := (pointsTo_share (PosShare.mem_left_op_right fullShare)).1 $$ Ha
    icases Hh with ⟨Hl, Hr⟩
    imodintro
    isplitl [Hl Hr Hv0 Hv1 Hv2]
    · isplitl [Hl]; · iexact Hl
      isplitl [Hr]; · iexact Hr
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec0 c) ?_ (hin m c)
    unfold Pipeline.ΦA
    iintro ⟨Hp, -, Hr⟩
    isplitl [Hr] <;> iassumption
  hout c := by
    refine (hout m c).trans ?_
    rw [Pipeline.ownSems0_none]; unfold Pipeline.ΦA
    iintro ⟨Hr, Hp⟩
    isplitl [Hp]; · iexact Hp
    isplitr; · iempintro
    iexact Hr
  hexit c := by
    rw [held0_eq, arrays0_eq, arrAtN_0, arrAtN_1, arrAtN_2, arrAtN_3, restChain_W1,
      W1_of_ne m c main_arg0 (by decide), W1_of_ne m c main_v0 (by decide), W1_of_ne m c main_v1 (by decide), W1_v2]
    iintro ⟨⟨Hl, Hr, Hv0, Hv1, Hv2⟩, HO, Hp, Hrest⟩
    ihave Ha := (pointsTo_share (PosShare.mem_left_op_right fullShare)).2 $$ [Hl Hr]
    · isplitl [Hl] <;> iassumption
    imodintro
    isplitr [Hp HO]
    · isplitl [Ha Hv0 Hv1 Hv2]
      · isplitl [Ha]; · iexact Ha
        isplitl [Hv0]; · iexact Hv0
        isplitl [Hv1]; · iexact Hv1
        iexact Hv2
      iexact Hrest
    · isplitl [Hp]; · iexact Hp
      unfold Pipeline.Dat.owesAt Pipeline.owesWithin
      icases HO with ⟨%W, -, HO⟩; iexists W; iexact HO

/-! ## The run -/

/-- The program as the list of its three segments. -/
abbrev segs : List (Pipeline.Seg (pcfgs (F := F)) adm (dats m) () defs₀ 𝒱₀ L lv) := [.host (seg0 m), .region (reg0 m), .host (seg1 m)]

/-- The buffers at the end: the three operations after the region have run. -/
abbrev W2 (c : Dev nD) : Valuation τ sig (Elt F) := StableHlo.after hostOps1 (W1 m c)

/-- The last thread state: every unscoped buffer at its final contents, the generator register at some state. -/
abbrev Tₙ (c : Dev nD) : sProp 𝕄 := iprop(StableHlo.held (c : Thread nD τ) (Pipeline.ucRefs τ sig) (W2 m c) ∗ ∃ r, prngReg c r)

/-- What the final memory holds: the result and the two arguments at the final valuation. -/
def QC : PUnit × MemSt nD τ sig (Elt F) → Prop := fun r => ∀ c : Dev nD,
  r.2.mem ((c : Thread nD τ).loc main_v5) = W2 m c (Proc.devRef .tc main_v5)
  ∧ r.2.mem ((c : Thread nD τ).loc main_arg0) = W2 m c (Proc.devRef .tc main_arg0)
  ∧ r.2.mem ((c : Thread nD τ).loc main_arg1) = W2 m c (Proc.devRef .tc main_arg1)

set_option backward.isDefEq.respectTransparency.types false in
/-- For any float values, from any memory with zero counters: every weakly fair execution of the program terminates,
    and the final memory holds the result and the two arguments at the final valuation. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) (Pipeline.ucRefs τ sig) (StableHlo.after hostOps1 (W1 m c)) ∗ R c) ⊢ _
      iintro ⟨Hh, Hp, HO⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => s.mem ((c : Thread nD τ).loc main_v5) = W2 m c (Proc.devRef .tc main_v5)
      ∧ s.mem ((c : Thread nD τ).loc main_arg0) = W2 m c (Proc.devRef .tc main_arg0)
      ∧ s.mem ((c : Thread nD τ).loc main_arg1) = W2 m c (Proc.devRef .tc main_arg1))
    (hfin := fun c s' => by
      dsimp only [Tₙ]; rw [held0_eq]; unfold restChain
      iintro ⟨⟨⟨⟨Ha, -, -, -⟩, H1, -, -, -, -, H5⟩, -⟩, HSI⟩
      icombine HSI Ha gives %ha
      icombine HSI H1 gives %h1
      icombine HSI H5 gives %h5
      imodintro
      isplitr; · ipureintro; exact ⟨Buf.eq_of_forall_mem_univ h5, Buf.eq_of_forall_mem_univ ha, Buf.eq_of_forall_mem_univ h1⟩
      iexact HSI)
    (hQ := fun _ h => h)

/-- No operation writes the two arguments: they end as launched. -/
theorem W2_arg0 (c : Dev nD) : W2 m c (Proc.devRef .tc main_arg0) = m ((c : Thread nD τ).loc main_arg0) := by
  show StableHlo.after hostOps1 (W1 m c) (Proc.devRef .tc main_arg0) = _
  after_results
  rw [W1_of_ne m c main_arg0 (by decide)]
  show StableHlo.after hostOps0 (V₀ m c) (Proc.devRef .tc main_arg0) = _
  after_results
theorem W2_arg1 (c : Dev nD) : W2 m c (Proc.devRef .tc main_arg1) = m ((c : Thread nD τ).loc main_arg1) := by
  show StableHlo.after hostOps1 (W1 m c) (Proc.devRef .tc main_arg1) = _
  after_results
  rw [W1_of_ne m c main_arg1 (by decide)]
  show StableHlo.after hostOps0 (V₀ m c) (Proc.devRef .tc main_arg1) = _
  after_results

/-- The result: the mean of the logarithms of the result array's entries. -/
theorem W2_v5 (c : Dev nD) : W2 m c (Proc.devRef .tc main_v5)
    = Host.divf (Host.reduceAdd (Host.log (final m c)) (constant S_ .f32 0x00000000#32) reducesTo_S8192x1_S_d0_1 h_S_) (constant S_ .f32 0x46000000#32) := by
  show StableHlo.after hostOps1 (W1 m c) (Proc.devRef .tc main_v5) = _
  after_results
  rw [W1_v2]

/-- The frame: the program runs to the end, faults nowhere, and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1.trans (W2_arg0 m c), (h c).2.2.trans (W2_arg1 m c)⟩) (run_main m ρ)

/-- The run with the result named: the mean of the logarithms of the result array, the arguments unchanged. -/
theorem run_value : θ_run defs (onTc (τ := τ) (main (F := F))) ⟨m, fun _ => 0, ρ⟩ (fun r => ∀ c : Dev nD,
      r.2.mem ((c.tc : Thread nD τ).loc main_v5)
        = Host.divf (Host.reduceAdd (Host.log (final m c)) (constant S_ .f32 0x00000000#32) reducesTo_S8192x1_S_d0_1 h_S_) (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (W2_v5 m c), (h c).2.1.trans (W2_arg0 m c), (h c).2.2.trans (W2_arg1 m c)⟩) (run_main m ρ)

end Cert.KernelIdeal.Hand

end
-- ==== Proof.KI.Pieces.lean ====
/-
  What each control case leaves in the accumulator (and, at the last column block, in the result window), as the body's
  arithmetic applied to the point's four input blocks and to what the accumulator held: the stores' pieces read
  back.  Each store is of the whole buffer, so the last one decides the contents; a load after a store reads the stored value.
-/
import proofs.«161786_j59605556134109_1_alg».proof.Proof.KI.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, as the body's arithmetic of the point's blocks -/

theorem soutB_eq (c : Dev nD) (t : Fin cfg0.N) (h0 : ¬t.val % 8 = 0) (h1 : ¬t.val % 8 = 7) (xs : Vec F S1024x1 .f32) :
    soutB m c t h0 h1 xs = k0_pay2 (iblk m c 0 t) (iblk m c 1 t) (iblk m c 2 t) (iblk m c 3 t) xs := by
  have hz : (![0, 0] : Fin 2 → Nat) = fun _ => 0 := by funext a; fin_cases a <;> rfl
  unfold soutB
  rw [View.read_writes_eq_canon _ _ _ (scoverB m c t h0 h1 xs)]
  unfold runB kernelRun0_B
  dsimp only
  sl_unfold_words
  rw [View.canon_unit_zero (S := S1024x1) hz]
  simp only [View.readAt_eq_ld, Memref.IsWhole.read_unread, View.ld_unit_zero (S := S1024x128) hz, View.ld_unit_zero (S := S1024x1) hz, View.ld_unit_zero (S := S1x1024) hz]
  exact congrArg _ ((Memref.isWhole_whole cc0_scratch0).read_unread xs)

theorem soutC_eq (c : Dev nD) (t : Fin cfg0.N) (h0 : ¬t.val % 8 = 0) (h1 : t.val % 8 = 7) (xs : Vec F S1024x1 .f32) :
    soutC m c t h0 h1 xs = k0_pay2 (iblk m c 0 t) (iblk m c 1 t) (iblk m c 2 t) (iblk m c 3 t) xs := by
  have hz : (![0, 0] : Fin 2 → Nat) = fun _ => 0 := by funext a; fin_cases a <;> rfl
  unfold soutC
  rw [View.read_writes_eq_canon _ _ _ (scoverC m c t h0 h1 xs)]
  unfold runC kernelRun0_C
  dsimp only
  sl_unfold_words
  rw [View.canon_unit_zero (S := S1024x1) hz]
  simp only [View.readAt_eq_ld, Memref.IsWhole.read_unread, View.ld_unit_zero (S := S1024x128) hz, View.ld_unit_zero (S := S1024x1) hz, View.ld_unit_zero (S := S1x1024) hz]
  exact congrArg _ ((Memref.isWhole_whole cc0_scratch0).read_unread xs)

theorem outC_eq (c : Dev nD) (t : Fin cfg0.N) (h0 : ¬t.val % 8 = 0) (h1 : t.val % 8 = 7) (xs : Vec F S1024x1 .f32) :
    outC m c t h0 h1 xs = k0_pay2 (iblk m c 0 t) (iblk m c 1 t) (iblk m c 2 t) (iblk m c 3 t) xs := by
  have hz : (![0, 0] : Fin 2 → Nat) = fun _ => 0 := by funext a; fin_cases a <;> rfl
  unfold outC
  rw [View.read_writes_eq_canon _ _ _ (coverC m c t h0 h1 xs)]
  unfold runC kernelRun0_C
  dsimp only
  sl_unfold_words
  rw [View.canon_unit_zero (S := S1024x1) hz, View.readCov_unit_zero (S := S1024x1) _ hz]
  simp only [View.readAt_eq_ld, Memref.IsWhole.read_unread, View.ld_unit_zero (S := S1024x128) hz, View.ld_unit_zero (S := S1024x1) hz, View.ld_unit_zero (S := S1x1024) hz]
  exact congrArg _ ((Memref.isWhole_whole cc0_scratch0).read_unread xs)

theorem soutA_eq (c : Dev nD) (t : Fin cfg0.N) (h0 : t.val % 8 = 0) (h1 : ¬t.val % 8 = 7) :
    soutA m c t h0 h1 = k0_pay2 (iblk m c 0 t) (iblk m c 1 t) (iblk m c 2 t) (iblk m c 3 t) (k0_pay1 (F := F)) := by
  have hz : (![0, 0] : Fin 2 → Nat) = fun _ => 0 := by funext a; fin_cases a <;> rfl
  unfold soutA
  rw [View.read_writes_eq_canon _ _ _ (scoverA m c t h0 h1)]
  unfold runA kernelRun0_A
  dsimp only
  sl_unfold_words
  rw [View.canon_cons_unit_zero (S := S1024x1) hz]
  simp only [View.readAt_eq_ld, Memref.IsWhole.read_unread, View.ld_unit_zero (S := S1024x128) hz, View.ld_unit_zero (S := S1024x1) hz, View.ld_unit_zero (S := S1x1024) hz, View.readCov_unit_zero (S := S1024x1) _ hz]

end Cert.KernelIdeal.Hand

end
-- ==== Proof.Spec.lean ====
/-
  The value both programs compute, as one function of the argument arrays over the extended reals.

  For embeddings `E : [8192,128]` and labels `lab : [8192]`: the similarity of rows `r`, `s` is the inner
  product `sim r s = ∑ k, E r k * E s k`; the entry `term r s` is `exp (margin - sim r s)` when the two labels
  agree and `exp (sim r s - margin)` otherwise, `margin` the binary32 value nearest 0.1 (one literal on both
  sides, never evaluated); a row's sum is `rowSum r = ∑ s, term r s`; the loss is the mean over the rows of the
  logarithms of the row sums.  The kernel tiles the columns into eight blocks of 1024 and accumulates the blocks'
  partial sums from zero; the reference sums a row at once: the two agree because addition on the extended reals
  is commutative and associative (no finiteness is used).
-/
import Idealize.ShloMosaic.PureOps.Ideal
import Idealize.ShloMosaic.Lib.ValueIdx

noncomputable section

open scoped BigOperators

namespace Cert.NPair

open Idealize.ShloMosaic Idealize.ShloMosaic.ValueIdx

/-- The shapes of the two arguments. -/
abbrev SE : Shape := ⟨2, ![8192, 128]⟩
abbrev SLab : Shape := ⟨1, ![8192]⟩

/-- The margin: the binary32 literal both programs carry. -/
def margin : EReal := Ideal.ofBits .f32 0x3DCCCCCD#32

/-- The similarity of rows `r` and `s`: their inner product. -/
def sim (E : SE.Idx → EReal) (r s : Fin 8192) : EReal := ∑ k : Fin 128, E (ix2 r k) * E (ix2 s k)

/-- One entry of the loss matrix from the two labels and the similarity. -/
def entry (a b : BitVec 32) (x : EReal) : EReal :=
  if a = b then Ideal.exp (margin - x) else Ideal.exp (x - margin)

/-- The entry at row `r`, column `s`. -/
def term (E : SE.Idx → EReal) (lab : SLab.Idx → BitVec 32) (r s : Fin 8192) : EReal :=
  entry (lab (ix1 r)) (lab (ix1 s)) (sim E r s)

/-- A row's sum over all 8192 columns. -/
def rowSum (E : SE.Idx → EReal) (lab : SLab.Idx → BitVec 32) (r : Fin 8192) : EReal := ∑ s : Fin 8192, term E lab r s

/-- The loss: the mean of the logarithms of the row sums (the divisor is the literal 8192.0). -/
def loss (E : SE.Idx → EReal) (lab : SLab.Idx → BitVec 32) : EReal :=
  Ideal.div (∑ r : Fin 8192, Ideal.log (rowSum E lab r)) (Ideal.ofBits .f32 0x46000000#32)

/-- Column `q` of column block `j`. -/
def col (j : Fin 8) (q : Fin 1024) : Fin 8192 := ⟨j.val * 1024 + q.val, by have := j.isLt; have := q.isLt; omega⟩

/-- Row `p` of row block `i`. -/
def row (i : Fin 8) (p : Fin 1024) : Fin 8192 := ⟨i.val * 1024 + p.val, by have := i.isLt; have := p.isLt; omega⟩

/-- The partial sum of row `r` over column block `j`. -/
def blockSum (E : SE.Idx → EReal) (lab : SLab.Idx → BitVec 32) (r : Fin 8192) (j : Fin 8) : EReal :=
  ∑ q : Fin 1024, term E lab r (col j q)

/-- The accumulator after the first `n` column blocks, from zero, one block at a time (the kernel's order). -/
def accUpTo (E : SE.Idx → EReal) (lab : SLab.Idx → BitVec 32) (r : Fin 8192) : ℕ → EReal
  | 0 => 0
  | n + 1 => accUpTo E lab r n + (if h : n < 8 then blockSum E lab r ⟨n, h⟩ else 0)

/-- The columns are the eight blocks of 1024. -/
def colEquiv : Fin 8 × Fin 1024 ≃ Fin 8192 where
  toFun p := col p.1 p.2
  invFun s := (⟨s.val / 1024, by have := s.isLt; omega⟩, ⟨s.val % 1024, Nat.mod_lt _ (by norm_num)⟩)
  left_inv p := by
    obtain ⟨j, q⟩ := p
    have hj := j.isLt; have hq := q.isLt
    simp only [col]
    refine Prod.ext (Fin.ext ?_) (Fin.ext ?_)
    · show (j.val * 1024 + q.val) / 1024 = j.val; omega
    · show (j.val * 1024 + q.val) % 1024 = q.val; omega
  right_inv s := by
    apply Fin.ext
    show s.val / 1024 * 1024 + s.val % 1024 = s.val
    omega

/-- A row's sum is the sum of its eight block sums. -/
theorem rowSum_eq_blocks (E : SE.Idx → EReal) (lab : SLab.Idx → BitVec 32) (r : Fin 8192) :
    rowSum E lab r = ∑ j : Fin 8, blockSum E lab r j := by
  unfold rowSum blockSum
  rw [← Equiv.sum_comp colEquiv (fun s => term E lab r s), Fintype.sum_prod_type]
  rfl

/-- The accumulator after all eight blocks is the row's sum. -/
theorem accUpTo_eight (E : SE.Idx → EReal) (lab : SLab.Idx → BitVec 32) (r : Fin 8192) :
    accUpTo E lab r 8 = rowSum E lab r := by
  rw [rowSum_eq_blocks]
  simp only [accUpTo, Fin.sum_univ_eight, zero_add, show (0:ℕ) < 8 by norm_num, show (1:ℕ) < 8 by norm_num,
    show (2:ℕ) < 8 by norm_num, show (3:ℕ) < 8 by norm_num, show (4:ℕ) < 8 by norm_num, show (5:ℕ) < 8 by norm_num,
    show (6:ℕ) < 8 by norm_num, show (7:ℕ) < 8 by norm_num, dite_true]
  rfl

end Cert.NPair

end
-- ==== Proof.Payload.lean ====
/-
  The kernel's two stored values read at an index, over the extended reals.

  The first is the zero column the accumulator starts from.  The second is the accumulator's new contents: at row
  `p` the old value plus the sum over the 1024 columns `q` of the block of the loss-matrix entry at the two labels and
  the inner product of row `p` of the left block with row `q` of the right block.  Each layout operation (the casts
  to the same shape, the cast of a vector to a column, the broadcast of a column and of a row over the square, the
  transpose) is read at explicit coordinates; the matrix product into a zero accumulator is the sum over the
  contracted coordinate; the lane sum is the sum over the column coordinate; the integer comparison decides which
  exponential the selection keeps.
-/
import proofs.«161786_j59605556134109_1_alg».proof.Proof.Gen.KernelIdeal.Skeleton
import proofs.«161786_j59605556134109_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The layout operations at coordinates -/

/-- A vector of 1024 entries cast to a column reads, at row `p`, its entry `p`. -/
theorem cast_column_apply {α : Type} (x : S1024.Idx → α) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column broadcast over the square reads, at `(p, q)`, the column's row `p`. -/
theorem bcast_column_apply {α : Type} (v : S1024x1.Idx → α) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ =>
    show p.val = if (1024 : Nat) = 1 then 0 else p.val
    rw [if_neg (by decide)]
  | ⟨1, _⟩ =>
    show 0 = if (1 : Nat) = 1 then 0 else q.val
    rw [if_pos rfl]

/-- A row broadcast over the square reads, at `(p, q)`, the row's column `q`. -/
theorem bcast_row_apply {α : Type} (v : S1x1024.Idx → α) (h : S1x1024.Broadcasts S1024x1024) (p q : Fin 1024) :
    broadcastTo S1024x1024 v h (ix2 p q) = v (ix2 (0 : Fin 1) q) :=
  broadcastTo_1b_ab_apply v h p q

/-- The right block transposed reads, at `(k, q)`, the block at `(q, k)`. -/
theorem transpose_block_apply {α : Type} (x : S1024x128.Idx → α) (h : S1024x128.Transposes [1, 0] S128x1024)
    (k : Fin 128) (q : Fin 1024) : transpose S128x1024 [1, 0] x h (ix2 k q) = x (ix2 q k) :=
  transpose_ix2_apply x h k q

/-! ## The matrix product at coordinates -/

/-- The left operand's row coordinate at an output index is the output's row. -/
theorem lhs_dot_0 (i : S1024x1024.Idx) (c : dot_S1024x128_S128x1024_S1024x1024_1_0_0_1_n_n.contr.Idx) :
    (dot_S1024x128_S128x1024_S1024x1024_1_0_0_1_n_n.lhsIdx i c 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
/-- The left operand's column coordinate is the contracted coordinate. -/
theorem lhs_dot_1 (i : S1024x1024.Idx) (c : dot_S1024x128_S128x1024_S1024x1024_1_0_0_1_n_n.contr.Idx) :
    (dot_S1024x128_S128x1024_S1024x1024_1_0_0_1_n_n.lhsIdx i c 1).val = (c ⟨0, by decide⟩).val :=
  dot_S1024x128_S128x1024_S1024x1024_1_0_0_1_n_n.lhsIdx_val_of_single rfl i c
/-- The right operand's row coordinate is the contracted coordinate. -/
theorem rhs_dot_0 (i : S1024x1024.Idx) (c : dot_S1024x128_S128x1024_S1024x1024_1_0_0_1_n_n.contr.Idx) :
    (dot_S1024x128_S128x1024_S1024x1024_1_0_0_1_n_n.rhsIdx i c 0).val = (c ⟨0, by decide⟩).val :=
  dot_S1024x128_S128x1024_S1024x1024_1_0_0_1_n_n.rhsIdx_val_of_single rfl i c
/-- The right operand's column coordinate at an output index is the output's column. -/
theorem rhs_dot_1 (i : S1024x1024.Idx) (c : dot_S1024x128_S128x1024_S1024x1024_1_0_0_1_n_n.contr.Idx) :
    (dot_S1024x128_S128x1024_S1024x1024_1_0_0_1_n_n.rhsIdx i c 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The matrix product into the zero accumulator reads, at `(p, q)`, the sum over `k` of the left operand at
    `(p, k)` times the right operand at `(k, q)`. -/
theorem dot_apply (a : FVec Ideal S1024x128 .bf16) (b : FVec Ideal S128x1024 .bf16) (p q : Fin 1024) :
    matmul dot_S1024x128_S128x1024_S1024x1024_1_0_0_1_n_n none a b (constant (F := Ideal) S1024x1024 .f32 0x00000000#32) (ix2 p q)
      = ∑ k : Fin 128, a (ix2 p k) * b (ix2 k q) := by
  simp only [matmul]
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 p q) ((ValueIdx.contrEquiv1 dot_S1024x128_S128x1024_S1024x1024_1_0_0_1_n_n 128 rfl rfl).symm k) = ix2 p k := funext fun ax => Fin.ext (by
    match ax with
    | ⟨0, _⟩ => exact lhs_dot_0 _ _
    | ⟨1, _⟩ => exact (lhs_dot_1 _ _).trans hk)
  have er : dot_S1024x128_S128x1024_S1024x1024_1_0_0_1_n_n.rhsIdx (ix2 p q) ((ValueIdx.contrEquiv1 dot_S1024x128_S128x1024_S1024x1024_1_0_0_1_n_n 128 rfl rfl).symm k) = ix2 k q := funext fun ax => Fin.ext (by
    match ax with
    | ⟨0, _⟩ => exact (rhs_dot_0 _ _).trans hk
    | ⟨1, _⟩ => exact rhs_dot_1 _ _)
  rw [el, er]

/-! ## The lane sum at a coordinate -/

/-- The sum over the lanes (axis 1) of a square block reads, at row `p`, the sum over the columns `q` of the block
    at `(p, q)`. -/
theorem lane_sum_apply (src : FVec Ideal S1024x1024 .f32) (h : S1024x1024.Reduces [1] S1024) (hφ : FKind.Formats .f32)
    (hacc : (0x00000000#32 : BitVec (FTy.bits .f32)) = FKind.add.neutral .f32 hφ) (p : Fin 1024) :
    multiReduction (F := Ideal) .add [1] S1024 src 0x00000000#32 h hφ hacc (ix1 p) = ∑ q : Fin 1024, src (ix2 p q) := by
  refine (Ideal.multiReduction_add_single src 0x00000000#32 h hφ hacc (ix1 p)).trans ?_
  show ∑ q : Fin 1024, src (h.lift (ix1 p) q) = ∑ q : Fin 1024, src (ix2 p q)
  refine Finset.sum_congr rfl fun q _ => congrArg src (funext fun ax => Fin.ext ?_)
  match ax with
  | ⟨0, _⟩ => rfl
  | ⟨1, _⟩ => rfl

/-! ## The two stored values -/

/-- The value stored at the first column block is the zero column. -/
theorem pay1_apply (y : S1024x1.Idx) : Gen.k0_pay1 (F := Ideal) y = 0 := by
  unfold Gen.k0_pay1
  rw [shapeCast_self]
  exact Ideal.ofBits_zero_f32

/-- An exponential at an index is the exponential of the element. -/
theorem exp_apply {s : Shape} {φ : FTy} (a : FVec Ideal s φ) (i : s.Idx) : exp a i = Ideal.exp (a i) := rfl

/-- The inner products: the product of the left block with the transposed right block reads, at `(p, q)`, the inner
    product of row `p` of the left block with row `q` of the right block (a change of format is the identity). -/
theorem sim_apply (x0 x1 : Vec Ideal S1024x128 .f32) (p q : Fin 1024) :
    matmul dot_S1024x128_S128x1024_S1024x1024_1_0_0_1_n_n none (truncf .bf16 x0 bitsLt_bf16_f32)
        (transpose S128x1024 [1, 0] (truncf .bf16 x1 bitsLt_bf16_f32) transposes_S1024x128_p1_0_S128x1024)
        (constant (F := Ideal) S1024x1024 .f32 0x00000000#32) (ix2 p q)
      = ∑ k : Fin 128, x0 (ix2 p k) * x1 (ix2 q k) := by
  rw [dot_apply]
  refine Finset.sum_congr rfl fun k _ => ?_
  rw [transpose_block_apply, truncf_apply, truncf_apply]

/-- The integer comparison of the broadcast labels reads, at `(p, q)`, the bit of "label `p` of the column equals label
    `q` of the row". -/
theorem same_label_apply (l0 : Vec Ideal S1024x1 .i32) (l1 : Vec Ideal S1x1024 .i32) (p q : Fin 1024) :
    cmpi .eq (broadcastTo S1024x1024 (shapeCast S1024x1 l0 shapeCasts_S1024x1_S1024x1) broadcasts_S1024x1_S1024x1024)
        (broadcastTo S1024x1024 (shapeCast S1x1024 l1 shapeCasts_S1x1024_S1x1024) broadcasts_S1x1024_S1024x1024) (ix2 p q)
      = IntOp.cmpi .eq (l0 (ix2 p (0 : Fin 1))) (l1 (ix2 (0 : Fin 1) q)) := by
  rw [shapeCast_self, shapeCast_self]
  show IntOp.cmpi .eq (broadcastTo S1024x1024 l0 broadcasts_S1024x1_S1024x1024 (ix2 p q))
      (broadcastTo S1024x1024 l1 broadcasts_S1x1024_S1024x1024 (ix2 p q)) = _
  rw [bcast_column_apply, bcast_row_apply]

/-- The selection on the comparison's bit is the loss-matrix entry at the two labels. -/
theorem select_entry (a b : BitVec 32) (x : EReal) :
    Scalar.select (IntOp.cmpi .eq a b) (Ideal.exp (Ideal.ofBits .f32 0x3DCCCCCD#32 - x))
        (Ideal.exp (x - Ideal.ofBits .f32 0x3DCCCCCD#32))
      = Cert.NPair.entry a b x := by
  unfold Cert.NPair.entry Cert.NPair.margin
  by_cases hab : a = b
  · rw [if_pos hab]
    have hc : IntOp.cmpi .eq a b = 1#1 := by
      subst hab
      simp [IntOp.cmpi]
    rw [hc, select_one]
  · rw [if_neg hab]
    have hb : (a == b) = false := beq_false_of_ne hab
    have hc : IntOp.cmpi .eq a b = 0#1 := by
      show BitVec.ofBool (a == b) = 0#1
      rw [hb]
      rfl
    rw [hc, select_zero]

/-- The accumulator's new contents at row `p`: the old value plus the sum over the block's 1024 columns of the
    loss-matrix entry at the two labels and the inner product of the two rows. -/
theorem pay2_apply (x0 x1 : Vec Ideal S1024x128 .f32) (l0 : Vec Ideal S1024x1 .i32) (l1 : Vec Ideal S1x1024 .i32)
    (xs : Vec Ideal S1024x1 .f32) (p : Fin 1024) :
    Gen.k0_pay2 (F := Ideal) x0 x1 l0 l1 xs (ix2 p 0)
      = xs (ix2 p 0) + ∑ q : Fin 1024, Cert.NPair.entry (l0 (ix2 p 0)) (l1 (ix2 0 q))
          (∑ k : Fin 128, x0 (ix2 p k) * x1 (ix2 q k)) := by
  unfold Gen.k0_pay2
  rw [shapeCast_self, addf_apply, cast_column_apply]
  refine congrArg (xs (ix2 p 0) + ·) ?_
  refine (lane_sum_apply _ _ _ _ p).trans ?_
  refine Finset.sum_congr rfl fun q _ => ?_
  rw [select_apply, same_label_apply]
  rw [exp_apply, exp_apply, subf_apply, subf_apply, broadcast_apply, sim_apply]
  exact select_entry _ _ _

end Cert.KernelIdeal.Pay

end
-- ==== Proof.KI.Value.lean ====
/-
  The value of the idealized kernel program, read off its run.

  At grid point `t` (row block `t / 8`, column block `t % 8`) the four input blocks are rows `(t / 8) * 1024 + p` of the
  embeddings, rows `(t % 8) * 1024 + q` of the embeddings, and the corresponding labels; the body adds to the
  accumulator's row `p` the partial sum of that row of the loss matrix over the column block.  By induction on the grid
  point the accumulator's row `p` holds, after point `t`, the partial sums over the column blocks `0 … t % 8` added
  from zero; at the last column block that is the row's whole sum, which is what the point writes back.  The eight such
  points cover the result array, so after the region it holds the 8192 row sums, and the host's mean of their
  logarithms is the loss.
-/
import proofs.«161786_j59605556134109_1_alg».proof.Proof.KI.Launch
import proofs.«161786_j59605556134109_1_alg».proof.Proof.KI.Pieces
import proofs.«161786_j59605556134109_1_alg».proof.Proof.Payload
import proofs.«161786_j59605556134109_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.NPair

variable (m : (ℓ : Loc nD τ sig) → Buf (Elt Ideal) ℓ) (ρ : Dev nD → PrngReg)

/-! ## The arguments, and the arrays the region reads -/

/-- The embeddings and the labels on core `c`, as the specification's arguments. -/
abbrev Emb (c : Dev nD) : SE.Idx → EReal := m ((c : Thread nD τ).loc main_arg0)
abbrev Lab (c : Dev nD) : SLab.Idx → BitVec 32 := m ((c : Thread nD τ).loc main_arg1)

/-- The block indices of the five windows at grid point `t`: the row block is `t / 8`, the column block `t % 8`. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

/-- The row block and the column block of a grid point. -/
def rb (t : Fin cfg0.N) : Fin 8 := ⟨t.val / 8, by have := lt_of_lt_of_eq t.isLt (show cfg0.N = 64 from N_0); omega⟩
def cb (t : Fin cfg0.N) : Fin 8 := ⟨t.val % 8, Nat.mod_lt _ (by norm_num)⟩

/-- The region finds the embeddings as launched, and the labels reshaped to a column and to a row. -/
theorem V_arg0 (c : Dev nD) : V m c main_arg0 = m ((c : Thread nD τ).loc main_arg0) := by
  show StableHlo.after hostOps0 (V₀ m c) (Proc.devRef .tc main_arg0) = _
  after_results
theorem V_v0 (c : Dev nD) : V m c main_v0 = shapeCast S8192x1 (m ((c : Thread nD τ).loc main_arg1)) shapeCasts_S8192_S8192x1 := by
  show StableHlo.after hostOps0 (V₀ m c) (Proc.devRef .tc main_v0) = _
  after_results
  rfl
theorem V_v1 (c : Dev nD) : V m c main_v1 = shapeCast S1x8192 (m ((c : Thread nD τ).loc main_arg1)) shapeCasts_S8192_S1x8192 := by
  show StableHlo.after hostOps0 (V₀ m c) (Proc.devRef .tc main_v1) = _
  after_results
  rfl

/-- The labels' column and row read at an index. -/
theorem col_apply (x : S8192.Idx → BitVec 32) (r : Fin 8192) (u : Fin 1) :
    shapeCast S8192x1 x shapeCasts_S8192_S8192x1 (ix2 r u) = x (ix1 r) :=
  shapeCast_apply x _ _ _ (by
    have hu : u.val = 0 := by omega
    rw [Shape.rowMajor_val_two, Shape.rowMajor_val_one]
    show r.val = r.val * 1 + u.val
    omega)
theorem row_apply (x : S8192.Idx → BitVec 32) (u : Fin 1) (s : Fin 8192) :
    shapeCast S1x8192 x shapeCasts_S8192_S1x8192 (ix2 u s) = x (ix1 s) :=
  shapeCast_apply x _ _ _ (by
    have hu : u.val = 0 := by omega
    rw [Shape.rowMajor_val_two, Shape.rowMajor_val_one]
    show s.val = u.val * 8192 + s.val
    omega)

/-! ## The four input blocks at a grid point -/

theorem iblk0_apply (c : Dev nD) (t : Fin cfg0.N) (p : Fin 1024) (k : Fin 128) :
    iblk m c 0 t (ix2 p k) = Emb m c (ix2 (row (rb t) p) k) := by
  obtain ⟨e00, e01, -⟩ := idx_facts t
  show V m c main_arg0 (((cfg0.win 0).blk t).view.emb (ix2 p k)) = _
  rw [V_arg0]
  refine congrArg _ (funext fun a => Fin.ext ?_)
  match a with
  | ⟨0, _⟩ => show win0_0.index t (0 : Fin 2) * 1024 + 1 * p.val = (t.val / 8) * 1024 + p.val; omega
  | ⟨1, _⟩ => show win0_0.index t (1 : Fin 2) * 128 + 1 * k.val = k.val; omega

theorem iblk1_apply (c : Dev nD) (t : Fin cfg0.N) (q : Fin 1024) (k : Fin 128) :
    iblk m c 1 t (ix2 q k) = Emb m c (ix2 (col (cb t) q) k) := by
  obtain ⟨-, -, e10, e11, -⟩ := idx_facts t
  show V m c main_arg0 (((cfg0.win 1).blk t).view.emb (ix2 q k)) = _
  rw [V_arg0]
  refine congrArg _ (funext fun a => Fin.ext ?_)
  match a with
  | ⟨0, _⟩ => show win0_1.index t (0 : Fin 2) * 1024 + 1 * q.val = (t.val % 8) * 1024 + q.val; omega
  | ⟨1, _⟩ => show win0_1.index t (1 : Fin 2) * 128 + 1 * k.val = k.val; omega

theorem iblk2_apply (c : Dev nD) (t : Fin cfg0.N) (p : Fin 1024) :
    iblk m c 2 t (ix2 p 0) = Lab m c (ix1 (row (rb t) p)) := by
  obtain ⟨-, -, -, -, e20, e21, -⟩ := idx_facts t
  show V m c main_v0 (((cfg0.win 2).blk t).view.emb (ix2 p 0)) = _
  rw [V_v0]
  have e : ((cfg0.win 2).blk t).view.emb (ix2 p (0 : Fin 1)) = ix2 (row (rb t) p) (0 : Fin 1) :=
    funext fun a => Fin.ext (by
      match a with
      | ⟨0, _⟩ => show win0_2.index t (0 : Fin 2) * 1024 + 1 * p.val = (t.val / 8) * 1024 + p.val; omega
      | ⟨1, _⟩ => show win0_2.index t (1 : Fin 2) * 1 + 1 * 0 = 0; omega)
  rw [e, col_apply]

theorem iblk3_apply (c : Dev nD) (t : Fin cfg0.N) (q : Fin 1024) :
    iblk m c 3 t (ix2 0 q) = Lab m c (ix1 (col (cb t) q)) := by
  obtain ⟨-, -, -, -, -, -, e30, e31, -⟩ := idx_facts t
  show V m c main_v1 (((cfg0.win 3).blk t).view.emb (ix2 0 q)) = _
  rw [V_v1]
  have e : ((cfg0.win 3).blk t).view.emb (ix2 (0 : Fin 1) q) = ix2 (0 : Fin 1) (col (cb t) q) :=
    funext fun a => Fin.ext (by
      match a with
      | ⟨0, _⟩ => show win0_3.index t (0 : Fin 2) * 1 + 1 * 0 = 0; omega
      | ⟨1, _⟩ => show win0_3.index t (1 : Fin 2) * 1024 + 1 * q.val = (t.val % 8) * 1024 + q.val; omega)
  rw [e, row_apply]

/-- The body's arithmetic at a grid point: the accumulator's entry for row `p` of the row block gains the row's partial
    sum over the column block. -/
theorem pay2_blocks (c : Dev nD) (t : Fin cfg0.N) (xs : Vec Ideal S1024x1 .f32) (p : Fin 1024) :
    k0_pay2 (F := Ideal) (iblk m c 0 t) (iblk m c 1 t) (iblk m c 2 t) (iblk m c 3 t) xs (ix2 p 0)
      = xs (ix2 p 0) + blockSum (Emb m c) (Lab m c) (row (rb t) p) (cb t) := by
  rw [Cert.KernelIdeal.Pay.pay2_apply]
  unfold blockSum term sim
  refine congrArg (_ + ·) (Finset.sum_congr rfl fun q _ => ?_)
  rw [iblk2_apply, iblk3_apply]
  refine congrArg _ (Finset.sum_congr rfl fun k _ => ?_)
  rw [iblk0_apply, iblk1_apply]

/-! ## The accumulator and the result window after each grid point -/

theorem accUpTo_succ (E : SE.Idx → EReal) (lab : SLab.Idx → BitVec 32) (r : Fin 8192) (k : ℕ) (h : k < 8) :
    accUpTo E lab r (k + 1) = accUpTo E lab r k + blockSum E lab r ⟨k, h⟩ := by
  show accUpTo E lab r k + (if h' : k < 8 then blockSum E lab r ⟨k, h'⟩ else 0) = _
  rw [dif_pos h]

/-- The point before `t`. -/
def prev (t : Fin cfg0.N) : Fin cfg0.N := ⟨t.val - 1, Nat.lt_of_le_of_lt (Nat.sub_le _ _) t.isLt⟩

/-- One step of the accumulation: if the accumulator's row `p` held the partial sums up to the point's column block, after
    the body it holds them up to and including it. -/
theorem acc_step (c : Dev nD) (t : Fin cfg0.N) (p : Fin 1024) (xs : Vec Ideal S1024x1 .f32)
    (hxs : xs (ix2 p 0) = accUpTo (Emb m c) (Lab m c) (row (rb t) p) (t.val % 8)) :
    k0_pay2 (F := Ideal) (iblk m c 0 t) (iblk m c 1 t) (iblk m c 2 t) (iblk m c 3 t) xs (ix2 p 0)
      = accUpTo (Emb m c) (Lab m c) (row (rb t) p) (t.val % 8 + 1) := by
  rw [pay2_blocks, hxs, accUpTo_succ _ _ _ (t.val % 8) (Nat.mod_lt _ (by norm_num))]
  rfl

/-- After the body at point `t` the accumulator's row `p` holds the row's partial sums over the column blocks up to the
    point's own, added from zero one block at a time. -/
theorem acc_at (c : Dev nD) : ∀ (n : ℕ) (t : Fin cfg0.N), t.val = n → ∀ p : Fin 1024,
    (outsAt0 m c t.val t.isLt).2 (ix2 p 0) = accUpTo (Emb m c) (Lab m c) (row (rb t) p) (t.val % 8 + 1) := by
  intro n
  induction n with
  | zero =>
    intro t ht p
    have h0 : t.val % 8 = 0 := by rw [ht]
    have h1 : ¬t.val % 8 = 7 := by omega
    rw [outsAt0_A m c t h0 h1]; dsimp only
    rw [soutA_eq]
    refine acc_step m c t p _ ?_
    rw [Cert.KernelIdeal.Pay.pay1_apply, h0]; rfl
  | succ n ih =>
    intro t ht p
    have hN : t.val < 64 := lt_of_lt_of_eq t.isLt (show cfg0.N = 64 from N_0)
    by_cases h0 : t.val % 8 = 0
    · have h1 : ¬t.val % 8 = 7 := by omega
      rw [outsAt0_A m c t h0 h1]; dsimp only
      rw [soutA_eq]
      refine acc_step m c t p _ ?_
      rw [Cert.KernelIdeal.Pay.pay1_apply, h0]; rfl
    · have hp : (prev t).val = n := by show t.val - 1 = n; omega
      have hr : rb (prev t) = rb t := Fin.ext (by show (t.val - 1) / 8 = t.val / 8; omega)
      have hk : (prev t).val % 8 + 1 = t.val % 8 := by show (t.val - 1) % 8 + 1 = t.val % 8; omega
      have hprev : (outsAt0 m c (t.val - 1) (Nat.lt_of_le_of_lt (Nat.sub_le _ _) t.isLt)).2 (ix2 p 0)
          = accUpTo (Emb m c) (Lab m c) (row (rb t) p) (t.val % 8) := by
        have e := ih (prev t) hp p
        rw [hr, hk] at e
        exact e
      by_cases h1 : t.val % 8 = 7
      · rw [outsAt0_C m c t h0 h1]; dsimp only
        rw [soutC_eq]
        exact acc_step m c t p _ hprev
      · rw [outsAt0_B m c t h0 h1]; dsimp only
        rw [soutB_eq]
        exact acc_step m c t p _ hprev

/-- At a point of the last column block the result window receives the finished row sums. -/
theorem out_at (c : Dev nD) (t : Fin cfg0.N) (h1 : t.val % 8 = 7) (p : Fin 1024) :
    (outsAt0 m c t.val t.isLt).1 (ix2 p 0) = rowSum (Emb m c) (Lab m c) (row (rb t) p) := by
  have hN : t.val < 64 := lt_of_lt_of_eq t.isLt (show cfg0.N = 64 from N_0)
  have h0 : ¬t.val % 8 = 0 := by omega
  have hr : rb (prev t) = rb t := Fin.ext (by show (t.val - 1) / 8 = t.val / 8; omega)
  have hk : (prev t).val % 8 + 1 = t.val % 8 := by show (t.val - 1) % 8 + 1 = t.val % 8; omega
  have hprev : (outsAt0 m c (t.val - 1) (Nat.lt_of_le_of_lt (Nat.sub_le _ _) t.isLt)).2 (ix2 p 0)
      = accUpTo (Emb m c) (Lab m c) (row (rb t) p) (t.val % 8) := by
    have e := acc_at m c (prev t).val (prev t) rfl p
    rw [hr, hk] at e
    exact e
  rw [outsAt0_C m c t h0 h1]; dsimp only
  rw [outC_eq, acc_step m c t p _ hprev, h1]
  exact accUpTo_eight _ _ _

/-! ## The result array after the run, and the loss -/

/-- Row `r` of the result array: the row's sum over all the columns. -/
def Gout (c : Dev nD) : S8192x1.Idx → EReal := fun y => rowSum (Emb m c) (Lab m c) ⟨(y 0).val, idx2_lt0 y⟩

/-- What a point of the last column block writes back is its block of the row sums. -/
theorem flushed4_eq (c : Dev nD) (t : Fin cfg0.N) (hf : (cfg0.win 4).flush t = true) :
    (dats m 0 c).flushed 4 t = ((cfg0.win 4).blk t).view.read (Elt Ideal) (Gout m c) := by
  have h1 : t.val % 8 = 7 := (flush0_4 t).mp hf
  obtain ⟨-, -, -, -, -, -, -, -, e40, e41⟩ := idx_facts t
  show (cfg0.win 4).cut (grid0.coords t) ((dats m 0 c).after 4 t) = _
  rw [after0_4]
  funext y
  obtain ⟨p, u, rfl⟩ : ∃ (p : Fin 1024) (u : Fin 1), y = ix2 p u := ⟨y 0, y 1, eq_ix2 y⟩
  obtain rfl : u = 0 := Fin.ext (by omega)
  show (outsAt0 m c t.val t.isLt).1 (ix2 p 0) = Gout m c (((cfg0.win 4).blk t).view.emb (ix2 p 0))
  rw [out_at m c t h1 p]
  unfold Gout
  refine congrArg _ (Fin.ext ?_)
  show (t.val / 8) * 1024 + p.val = win0_4.index t (0 : Fin 2) * 1024 + 1 * p.val
  omega

/-- An index of the result array is in point `t`'s block iff each coordinate is in the block's range. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v2).slice (win0_4.rect t)).set ↔ _
  rw [View.set_slice_whole, Rect.mem_set_unit]
  exact Iff.rfl

/-- Every row of the result array is written back by the last point of its row block. -/
theorem cover4 (i : S8192x1.Idx) : ∃ t : Fin cfg0.N, (cfg0.win 4).flush t = true ∧ i ∈ ((cfg0.win 4).blk t).view.set := by
  have hi0 : (i 0).val < 8192 := idx2_lt0 i
  have hi1 : (i 1).val < 1 := idx2_lt1 i
  let t : Fin cfg0.N := ⟨(i 0).val / 1024 * 8 + 7, lt_of_lt_of_eq (by omega : (i 0).val / 1024 * 8 + 7 < 64) N_0.symm⟩
  have ht : t.val = (i 0).val / 1024 * 8 + 7 := rfl
  obtain ⟨-, -, -, -, -, -, -, -, e40, e41⟩ := idx_facts t
  refine ⟨t, (flush0_4 t).mpr (by rw [ht]; omega), ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

/-- The result array after the run holds the row sums. -/
theorem final_eq (c : Dev nD) : final m c = Gout m c :=
  (dats m 0 c).arrAt_eq_of_cover 4 (Gout m c) (fun t hf => flushed4_eq m c t hf) cover4

/-- The sum of a column of 8192 entries from the initial value zero is the sum of its entries. -/
theorem total_sum (Y : FVec Ideal S8192x1 .f32) (i : S_.Idx) :
    Host.reduceAdd Y (constant (F := Ideal) S_ .f32 0x00000000#32) reducesTo_S8192x1_S_d0_1 h_S_ i = ∑ r : Fin 8192, Y (ix2 r 0) := by
  simp only [Host.reduceAdd, Ideal.hostReduceAdd_def]
  rw [Ideal.hostReduceAdd_total reducesTo_S8192x1_S_d0_1 (fun b => b.elim0) Y _ i]
  rw [sum_idx2]
  show FloatOps.ofBits (F := Ideal) .f32 0x00000000#32 + _ = _
  rw [Ideal.ofBits_def, Ideal.ofBits_zero_f32, zero_add]
  refine Finset.sum_congr rfl fun r _ => ?_
  rw [Fin.sum_univ_one]

/-- The mean of the logarithms of a column of 8192 entries. -/
theorem mean_log (X : FVec Ideal S8192x1 .f32) :
    Host.divf (F := Ideal) (Host.reduceAdd (Host.log X) (constant S_ .f32 0x00000000#32) reducesTo_S8192x1_S_d0_1 h_S_) (constant S_ .f32 0x46000000#32)
      = fun _ => Ideal.div (∑ r : Fin 8192, Ideal.log (X (ix2 r 0))) (Ideal.ofBits .f32 0x46000000#32) := by
  funext i
  show FloatOps.hostDivf (Host.reduceAdd (Host.log X) (constant S_ .f32 0x00000000#32) reducesTo_S8192x1_S_d0_1 h_S_ i) (FloatOps.ofBits .f32 0x46000000#32) = _
  rw [total_sum, Ideal.hostDivf_def, Ideal.ofBits_def]
  rfl

/-- The kernel program's result — the logarithms of the result array summed from zero and divided by 8192.0 — is
    the specification's loss. -/
theorem kernel_loss (c : Dev nD) :
    Host.divf (F := Ideal) (Host.reduceAdd (Host.log (final m c)) (constant S_ .f32 0x00000000#32) reducesTo_S8192x1_S_d0_1 h_S_) (constant S_ .f32 0x46000000#32)
      = fun _ => loss (Emb m c) (Lab m c) := by
  rw [final_eq, mean_log]
  funext i
  unfold loss
  exact congrArg (fun s => Ideal.div s _) (Finset.sum_congr rfl fun r _ => rfl)

end Cert.KernelIdeal.Hand

end
-- ==== Proof.RefValue.lean ====
import proofs.«161786_j59605556134109_1_alg».proof.Proof.Gen.ReferenceIdeal.Run
import proofs.«161786_j59605556134109_1_alg».proof.Proof.Gen.ReferenceIdeal.Read
import proofs.«161786_j59605556134109_1_alg».proof.Proof.Spec

/-
  The reference program's result, read as the specification's loss.

  The reference forms the whole similarity matrix at once (a product of the embeddings with their transpose),
  compares the labels after broadcasting them along rows and along columns, takes the two exponentials, selects
  between them by the comparison, sums each row from the initial value zero, takes logarithms, sums those from
  zero, and divides by the literal 8192.0.  Entry by entry these are the specification's `sim`, `term`, `rowSum`
  and `loss`: the only arithmetic used is `0 + x = x` for the two initial values.
-/

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.StableHlo

/-- A select on the one-bit word of an equality test is the `if` on the equality. -/
theorem select_cmpi_eq {α : Type} (a b : BitVec 32) (x y : α) :
    Scalar.select (IntOp.cmpi .eq a b) x y = if a = b then x else y := by
  have e : IntOp.cmpi .eq a b = BitVec.ofBool (a == b) := rfl
  rw [e]
  by_cases h : a = b
  · rw [if_pos h, beq_iff_eq.mpr h]; exact select_one x y
  · rw [if_neg h, beq_eq_false_iff_ne.mpr h]; exact select_zero x y

/-- The indices of a vector of length 8192 are the numbers below 8192. -/
def idxEquiv1 : S8192.Idx ≃ Fin 8192 where
  toFun j := j 0
  invFun r := ix1 r
  left_inv j := (eq_ix1 j).symm
  right_inv _ := rfl

/-- A sum over the indices of a vector is the sum over its positions. -/
theorem sum_idx1 (f : S8192.Idx → EReal) : ∑ j : S8192.Idx, f j = ∑ r : Fin 8192, f (ix1 r) :=
  (Equiv.sum_comp idxEquiv1.symm f).symm

/-- The product matrix's entry `(r, s)` is the inner product of rows `r` and `s`. -/
theorem ref_sim (x0 : (⟨S8192x128, .f32⟩ : BufTy).Contents (Elt Ideal)) (r s : Fin 8192) :
    val_main_v1 (F := Ideal) x0 (ix2 r s) = Cert.NPair.sim x0 r s := by
  rw [val_main_v1_apply]
  unfold Cert.NPair.sim
  refine Finset.sum_congr rfl fun k _ => ?_
  rw [val_main_v0_apply]
  have e1 : lidx_main_v1 (ix2 r s) k = ix2 r k :=
    funext fun a => Fin.ext (by match a with | ⟨0, _⟩ => rfl | ⟨1, _⟩ => rfl)
  have e2 : idx_main_v0 (ridx_main_v1 (ix2 r s) k) = ix2 s k :=
    funext fun a => Fin.ext (by match a with | ⟨0, _⟩ => rfl | ⟨1, _⟩ => rfl)
  rw [e1, e2]

/-- The selected matrix's entry `(r, s)` is the specification's term. -/
theorem ref_entry (x0 : (⟨S8192x128, .f32⟩ : BufTy).Contents (Elt Ideal)) (x1 : (⟨S8192, .i32⟩ : BufTy).Contents (Elt Ideal))
    (r s : Fin 8192) :
    val_main_v13 (F := Ideal) x0 x1 (ix2 r s) = Cert.NPair.term x0 x1 r s := by
  have er : idx_main_v2 (idx_main_v4 (ix2 r s)) = ix1 r :=
    funext fun a => Fin.ext (by match a with | ⟨0, _⟩ => rfl)
  have es : idx_main_v3 (idx_main_v5 (ix2 r s)) = ix1 s :=
    funext fun a => Fin.ext (by match a with | ⟨0, _⟩ => rfl)
  rw [val_main_v13_apply, val_main_v6_apply, val_main_v4_apply, val_main_v2_apply, val_main_v5_apply, val_main_v3_apply,
    val_main_v9_apply, val_main_v8_apply, val_main_v7_apply, val_main_cst_apply,
    val_main_v12_apply, val_main_v11_apply, val_main_v10_apply, val_main_cst_0_apply, ref_sim, er, es, select_cmpi_eq]
  simp only [Ideal.subf_def, Ideal.hostUnary_exp_def, Ideal.ofBits_def]
  rfl

/-- Row `r` of the row sums is the specification's row sum. -/
theorem ref_rowSum (x0 : (⟨S8192x128, .f32⟩ : BufTy).Contents (Elt Ideal)) (x1 : (⟨S8192, .i32⟩ : BufTy).Contents (Elt Ideal))
    (r : Fin 8192) :
    val_main_v14 (F := Ideal) x0 x1 (ix1 r) = Cert.NPair.rowSum x0 x1 r := by
  rw [val_main_v14_apply, val_main_cst_1_apply, Ideal.ofBits_def, Ideal.ofBits_zero_f32, zero_add]
  unfold Cert.NPair.rowSum
  refine Finset.sum_congr rfl fun s _ => ?_
  have e : idx_main_v14 (ix1 r) s = ix2 r s :=
    funext fun a => Fin.ext (by match a with | ⟨0, _⟩ => rfl | ⟨1, _⟩ => rfl)
  rw [e, ref_entry]

/-- The reference's result is the specification's loss. -/
theorem ref_loss (x0 : (⟨S8192x128, .f32⟩ : BufTy).Contents (Elt Ideal)) (x1 : (⟨S8192, .i32⟩ : BufTy).Contents (Elt Ideal)) :
    val_main_v17 (F := Ideal) x0 x1 = fun _ => Cert.NPair.loss x0 x1 := by
  funext i
  rw [val_main_v17_apply, val_main_v16_apply, val_main_cst_2_apply, val_main_cst_3_apply, Ideal.ofBits_def, Ideal.ofBits_def,
    Ideal.ofBits_zero_f32, zero_add, Ideal.hostDivf_def, sum_idx1]
  unfold Cert.NPair.loss
  refine congrArg (fun t => Ideal.div t _) (Finset.sum_congr rfl fun r _ => ?_)
  rw [val_main_v15_apply, ref_rowSum, Ideal.hostUnary_log_def]

/-- The same over the operations' composed term, as it stands in the run's conclusion. -/
theorem run_term_eq (x0 : (⟨S8192x128, .f32⟩ : BufTy).Contents (Elt Ideal)) (x1 : (⟨S8192, .i32⟩ : BufTy).Contents (Elt Ideal)) :
    Host.divf (F := Ideal) (Host.reduceAdd (Host.log (Host.reduceAdd (select (cmpi .eq (broadcastInDim S8192x8192 ![0, 1] bcast_S8192x1_S8192x8192_0_1 (broadcastInDim S8192x1 ![0] bcast_S8192_S8192x1_0 (x1))) (broadcastInDim S8192x8192 ![0, 1] bcast_S1x8192_S8192x8192_0_1 (broadcastInDim S1x8192 ![1] bcast_S8192_S1x8192_1 (x1)))) (Host.exp (subf (broadcastInDim S8192x8192 ![] bcast_S_S8192x8192 (constant S_ .f32 0x3DCCCCCD#32)) (Host.dotGeneral (φ₁ := .f32) (φ₂ := .f32) dot_S8192x128_S128x8192_S8192x8192_1_0_0_1_n_n none (x0) (transpose S128x8192 [1, 0] (x0) transposes_S8192x128_S128x8192_1_0)))) (Host.exp (subf (Host.dotGeneral (φ₁ := .f32) (φ₂ := .f32) dot_S8192x128_S128x8192_S8192x8192_1_0_0_1_n_n none (x0) (transpose S128x8192 [1, 0] (x0) transposes_S8192x128_S128x8192_1_0)) (broadcastInDim S8192x8192 ![] bcast_S_S8192x8192 (constant S_ .f32 0x3DCCCCCD#32))))) (constant S_ .f32 0x00000000#32) reducesTo_S8192x8192_S8192_d1 h_S_)) (constant S_ .f32 0x00000000#32) reducesTo_S8192_S_d0 h_S_) (constant S_ .f32 0x46000000#32)
      = (fun _ => Cert.NPair.loss x0 x1 : (⟨S_, .f32⟩ : BufTy).Contents (Elt Ideal)) :=
  (val_main_v17_eq (F := Ideal) x0 x1).trans (ref_loss x0 x1)

end Cert.ReferenceIdeal.RefValue

end
-- ==== Proof.lean ====
/-
  The kernel computes the N-pair loss of 8192 embeddings of dimension 128 with integer labels, tile by tile: for
  each block of 1024 rows it walks the eight blocks of 1024 columns, forms the block of inner products, turns each
  entry into `exp (margin - s)` where the two labels agree and `exp (s - margin)` where they differ, sums each row
  of the block and adds the sums into an accumulator that is zeroed at the first column block and copied out at the
  last; the host then takes the mean of the logarithms of the 8192 row sums.  The reference forms the whole 8192 x 8192
  matrix, sums each row at once, and takes the same mean.  Over the extended reals the two are one function of the
  arguments: a row's sum over all the columns is the sum of its eight block sums added from zero in any grouping
  (addition there is commutative and associative; no finiteness of the inputs is used), a change of float format is the
  identity, and the margin is one binary32 literal on both sides.

  The three frames: the kernel program (at the word level and idealized, one text) runs the two reshapes of the
  labels, the region — whose two windows on the embeddings' array each hold half of its share — and the three host
  operations after it, to the end, faulting nowhere, its arguments unchanged; the reference is a straight line of host
  operations.  The idealization rewrote nothing, so nothing is to be preserved beyond the text itself.
-/
import proofs.«161786_j59605556134109_1_alg».proof.Defs
import proofs.«161786_j59605556134109_1_alg».proof.Proof.Gen.Kernel
import proofs.«161786_j59605556134109_1_alg».proof.Proof.Gen.KernelIdeal
import proofs.«161786_j59605556134109_1_alg».proof.Proof.Gen.ReferenceIdeal
import proofs.«161786_j59605556134109_1_alg».proof.Proof.Gen.Pre_finite_inputs
import proofs.«161786_j59605556134109_1_alg».proof.Proof.Gen.ReferenceIdeal.Run
import proofs.«161786_j59605556134109_1_alg».proof.Proof.K.Launch
import proofs.«161786_j59605556134109_1_alg».proof.Proof.KI.Value
import proofs.«161786_j59605556134109_1_alg».proof.Proof.RefValue

noncomputable section

namespace Cert.Proof

open Idealize.ShloMosaic Idealize.ShloMosaic.TcCoe Idealize.SL.Sem

/-- The word-level kernel program runs, and its arguments end unchanged. -/
theorem frame_k : Cert.frame_Kernel := fun m ρ _ => Cert.Kernel.Hand.frame m ρ

/-- The idealized kernel program runs, and its arguments end unchanged. -/
theorem frame_ki : Cert.frame_KernelIdeal := fun m ρ _ => Cert.KernelIdeal.Hand.frame (F := Ideal) m ρ

/-- The reference runs, and its arguments end unchanged. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the loss of those arguments. -/
theorem algebraic : Cert.algebraic_KernelIdeal_ReferenceIdeal := by
  intro m ρ m' ρ' _ hagree
  refine ⟨fun c => fun _ => Cert.NPair.loss (Cert.KernelIdeal.Hand.Emb m c) (Cert.KernelIdeal.Hand.Lab m c), ?_, ?_⟩
  · exact (θ_run Cert.KernelIdeal.defs _ _).mono
      (fun _ h c => ⟨(h c).1.trans (Cert.KernelIdeal.Hand.kernel_loss m c), (h c).2.1, (h c).2.2⟩)
      (Cert.KernelIdeal.Hand.run_value (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.RefValue.run_term_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
